-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x128 : Shape := ⟨3, ![4, 2048, 128]⟩
abbrev S4x2048x16x128 : Shape := ⟨4, ![4, 2048, 16, 128]⟩
abbrev S4x2048x16x32 : Shape := ⟨4, ![4, 2048, 16, 32]⟩
abbrev S_ : Shape := ⟨0, ![]⟩

class Facts : Prop where
  bcast_S_S4x2048x128 : S_.BroadcastsInDim S4x2048x128 (![] : Fin 0 → Fin S4x2048x128.rank)
  reducesTo_S4x2048x128_S_d0_1_2 : S4x2048x128.ReducesTo [0, 1, 2] S_
  h_S_ : 0 < S_.numel
  bcast_S_S4x2048x16x128 : S_.BroadcastsInDim S4x2048x16x128 (![] : Fin 0 → Fin S4x2048x16x128.rank)
  reducesTo_S4x2048x16x128_S_d0_1_2_3 : S4x2048x16x128.ReducesTo [0, 1, 2, 3] S_
  bcast_S_S4x2048x16x32 : S_.BroadcastsInDim S4x2048x16x32 (![] : Fin 0 → Fin S4x2048x16x32.rank)
  reducesTo_S4x2048x16x32_S_d0_1_2_3 : S4x2048x16x32.ReducesTo [0, 1, 2, 3] S_

variable [Facts]

def fn_part1 {F : FTy → Type} [FloatOps F] (main_arg4 : FVec F S4x2048x16x32 .f32) (main_v13 : IVec S_ 1) (main_v16 : IVec S4x2048x16x128 1) : IVec S_ 1 :=
  let main_c_5 : IVec S_ 1 := constantI S_ 1 1#1
  let main_v17 : IVec S_ 1 := (fun x v => Host.reduce IntOp.andi x v reducesTo_S4x2048x16x128_S_d0_1_2_3 h_S_) main_v16 main_c_5
  let main_v18 : IVec S_ 1 := andi main_v13 main_v17
  let main_v19 : FVec F S4x2048x16x32 .f32 := Host.absf main_arg4
  let main_cst_6 : FVec F S_ .f32 := constant S_ .f32 0x7F800000#32
  let main_v20 : FVec F S4x2048x16x32 .f32 := broadcastInDim S4x2048x16x32 ![] bcast_S_S4x2048x16x32 main_cst_6
  let main_v21 : IVec S4x2048x16x32 1 := cmpf .olt main_v19 main_v20
  let main_c_7 : IVec S_ 1 := constantI S_ 1 1#1
  let main_v22 : IVec S_ 1 := (fun x v => Host.reduce IntOp.andi x v reducesTo_S4x2048x16x32_S_d0_1_2_3 h_S_) main_v21 main_c_7
  let main_v23 : IVec S_ 1 := andi main_v18 main_v22
  main_v23

def fn {F : FTy → Type} [FloatOps F] (main_arg0 : FVec F S4x2048x128 .f32) (main_arg1 : FVec F S4x2048x128 .f32) (main_arg2 : FVec F S4x2048x16x128 .f32) (main_arg3 : FVec F S4x2048x16x128 .f32) (main_arg4 : FVec F S4x2048x16x32 .f32) : IVec S_ 1 :=
  let main_v0 : FVec F S4x2048x128 .f32 := Host.absf main_arg0
  let main_cst : FVec F S_ .f32 := constant S_ .f32 0x7F800000#32
  let main_v1 : FVec F S4x2048x128 .f32 := broadcastInDim S4x2048x128 ![] bcast_S_S4x2048x128 main_cst
  let main_v2 : IVec S4x2048x128 1 := cmpf .olt main_v0 main_v1
  let main_c : IVec S_ 1 := constantI S_ 1 1#1
  let main_v3 : IVec S_ 1 := (fun x v => Host.reduce IntOp.andi x v reducesTo_S4x2048x128_S_d0_1_2 h_S_) main_v2 main_c
  let main_v4 : FVec F S4x2048x128 .f32 := Host.absf main_arg1
  let main_cst_0 : FVec F S_ .f32 := constant S_ .f32 0x7F800000#32
  let main_v5 : FVec F S4x2048x128 .f32 := broadcastInDim S4x2048x128 ![] bcast_S_S4x2048x128 main_cst_0
  let main_v6 : IVec S4x2048x128 1 := cmpf .olt main_v4 main_v5
  let main_c_1 : IVec S_ 1 := constantI S_ 1 1#1
  let main_v7 : IVec S_ 1 := (fun x v => Host.reduce IntOp.andi x v reducesTo_S4x2048x128_S_d0_1_2 h_S_) main_v6 main_c_1
  let main_v8 : IVec S_ 1 := andi main_v3 main_v7
  let main_v9 : FVec F S4x2048x16x128 .f32 := Host.absf main_arg2
  let main_cst_2 : FVec F S_ .f32 := constant S_ .f32 0x7F800000#32
  let main_v10 : FVec F S4x2048x16x128 .f32 := broadcastInDim S4x2048x16x128 ![] bcast_S_S4x2048x16x128 main_cst_2
  let main_v11 : IVec S4x2048x16x128 1 := cmpf .olt main_v9 main_v10
  let main_c_3 : IVec S_ 1 := constantI S_ 1 1#1
  let main_v12 : IVec S_ 1 := (fun x v => Host.reduce IntOp.andi x v reducesTo_S4x2048x16x128_S_d0_1_2_3 h_S_) main_v11 main_c_3
  let main_v13 : IVec S_ 1 := andi main_v8 main_v12
  let main_v14 : FVec F S4x2048x16x128 .f32 := Host.absf main_arg3
  let main_cst_4 : FVec F S_ .f32 := constant S_ .f32 0x7F800000#32
  let main_v15 : FVec F S4x2048x16x128 .f32 := broadcastInDim S4x2048x16x128 ![] bcast_S_S4x2048x16x128 main_cst_4
  let main_v16 : IVec S4x2048x16x128 1 := cmpf .olt main_v14 main_v15
  fn_part1 (F := F) main_arg4 main_v13 main_v16
-- ==== Kernel.lean ====
abbrev S4x2048x128 : Shape := ⟨3, ![4, 2048, 128]⟩
abbrev S4x2048x16x128 : Shape := ⟨4, ![4, 2048, 16, 128]⟩
abbrev S4x2048x16x32 : Shape := ⟨4, ![4, 2048, 16, 32]⟩
abbrev S4x2048x32x4 : Shape := ⟨4, ![4, 2048, 32, 4]⟩
abbrev S4x2048x16x32x4 : Shape := ⟨5, ![4, 2048, 16, 32, 4]⟩
abbrev S4x2048x16x4 : Shape := ⟨4, ![4, 2048, 16, 4]⟩
abbrev S1x256x32x4 : Shape := ⟨4, ![1, 256, 32, 4]⟩
abbrev S1x256x16x32x4 : Shape := ⟨5, ![1, 256, 16, 32, 4]⟩
abbrev S1x256x16x32 : Shape := ⟨4, ![1, 256, 16, 32]⟩
abbrev S1x256x16x4 : Shape := ⟨4, ![1, 256, 16, 4]⟩
abbrev S256x32x4 : Shape := ⟨3, ![256, 32, 4]⟩
abbrev S256x16x32x4 : Shape := ⟨4, ![256, 16, 32, 4]⟩
abbrev S256x16x32 : Shape := ⟨3, ![256, 16, 32]⟩
abbrev S1x16x1x1 : Shape := ⟨4, ![1, 16, 1, 1]⟩
abbrev S256x1x32x4 : Shape := ⟨4, ![256, 1, 32, 4]⟩
abbrev S256x16x4 : Shape := ⟨3, ![256, 16, 4]⟩
abbrev S256x16x1x4 : Shape := ⟨4, ![256, 16, 1, 4]⟩
abbrev S256x1x4 : Shape := ⟨3, ![256, 1, 4]⟩
abbrev S256x1x1x4 : Shape := ⟨4, ![256, 1, 1, 4]⟩
abbrev S256x16x32x1 : Shape := ⟨4, ![256, 16, 32, 1]⟩
abbrev S256x4 : Shape := ⟨2, ![256, 4]⟩

abbrev nBuf : Space → Nat
  | .hbm => 12
  | .vmem => 14
  | .smem => 0
  | _ => 0

abbrev bufTy : (tb : Table) → Fin (tcTables nBuf tb) → BufTy
  | .hbm, ⟨0, _⟩ => ⟨S4x2048x128, .f32⟩
  | .hbm, ⟨1, _⟩ => ⟨S4x2048x128, .f32⟩
  | .hbm, ⟨2, _⟩ => ⟨S4x2048x16x128, .f32⟩
  | .hbm, ⟨3, _⟩ => ⟨S4x2048x16x128, .f32⟩
  | .hbm, ⟨4, _⟩ => ⟨S4x2048x16x32, .f32⟩
  | .hbm, ⟨5, _⟩ => ⟨S4x2048x32x4, .f32⟩
  | .hbm, ⟨6, _⟩ => ⟨S4x2048x32x4, .f32⟩
  | .hbm, ⟨7, _⟩ => ⟨S4x2048x16x32x4, .f32⟩
  | .hbm, ⟨8, _⟩ => ⟨S4x2048x16x32x4, .f32⟩
  | .hbm, ⟨9, _⟩ => ⟨S4x2048x32x4, .f32⟩
  | .hbm, ⟨10, _⟩ => ⟨S4x2048x16x4, .f32⟩
  | .hbm, ⟨11, _⟩ => ⟨S4x2048x128, .f32⟩
  | .local _ .vmem, ⟨0, _⟩ => ⟨S1x256x32x4, .f32⟩
  | .local _ .vmem, ⟨1, _⟩ => ⟨S1x256x32x4, .f32⟩
  | .local _ .vmem, ⟨2, _⟩ => ⟨S1x256x32x4, .f32⟩
  | .local _ .vmem, ⟨3, _⟩ => ⟨S1x256x32x4, .f32⟩
  | .local _ .vmem, ⟨4, _⟩ => ⟨S1x256x16x32x4, .f32⟩
  | .local _ .vmem, ⟨5, _⟩ => ⟨S1x256x16x32x4, .f32⟩
  | .local _ .vmem, ⟨6, _⟩ => ⟨S1x256x16x32x4, .f32⟩
  | .local _ .vmem, ⟨7, _⟩ => ⟨S1x256x16x32x4, .f32⟩
  | .local _ .vmem, ⟨8, _⟩ => ⟨S1x256x16x32, .f32⟩
  | .local _ .vmem, ⟨9, _⟩ => ⟨S1x256x16x32, .f32⟩
  | .local _ .vmem, ⟨10, _⟩ => ⟨S1x256x32x4, .f32⟩
  | .local _ .vmem, ⟨11, _⟩ => ⟨S1x256x32x4, .f32⟩
  | .local _ .vmem, ⟨12, _⟩ => ⟨S1x256x16x4, .f32⟩
  | .local _ .vmem, ⟨13, _⟩ => ⟨S1x256x16x4, .f32⟩
  | _, _ => ⟨S4x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x32x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x32x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x16x32x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x16x32x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x16x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x32x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x16x4 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S4x2048x128_S4x2048x32x4 : S4x2048x128.ShapeCasts S4x2048x32x4
  shapeCasts_S4x2048x16x128_S4x2048x16x32x4 : S4x2048x16x128.ShapeCasts S4x2048x16x32x4
  inb_S1x256x32x4_S1x256x32x4_0_0_0_0 : ∀ a, (![0, 0, 0, 0] : Fin 4 → Nat) a + S1x256x32x4.size a ≤ S1x256x32x4.size a
  h_S1x256x32x4 : 0 < S1x256x32x4.numel
  shapeCasts_S1x256x32x4_S256x32x4 : S1x256x32x4.ShapeCasts S256x32x4
  inb_S1x256x16x32x4_S1x256x16x32x4_0_0_0_0_0 : ∀ a, (![0, 0, 0, 0, 0] : Fin 5 → Nat) a + S1x256x16x32x4.size a ≤ S1x256x16x32x4.size a
  h_S1x256x16x32x4 : 0 < S1x256x16x32x4.numel
  shapeCasts_S1x256x16x32x4_S256x16x32x4 : S1x256x16x32x4.ShapeCasts S256x16x32x4
  inb_S1x256x16x32_S1x256x16x32_0_0_0_0 : ∀ a, (![0, 0, 0, 0] : Fin 4 → Nat) a + S1x256x16x32.size a ≤ S1x256x16x32.size a
  h_S1x256x16x32 : 0 < S1x256x16x32.numel
  shapeCasts_S1x256x16x32_S256x16x32 : S1x256x16x32.ShapeCasts S256x16x32
  iota_S1x16x1x1_d1_w32 : S1x16x1x1.Iotas .tc 32 [1]
  natLt_1_32 : 1 < 32
  shapeCasts_S256x32x4_S256x1x32x4 : S256x32x4.ShapeCasts S256x1x32x4
  broadcasts_S1x16x1x1_S256x16x32x4 : S1x16x1x1.Broadcasts S256x16x32x4
  broadcasts_S256x1x32x4_S256x16x32x4 : S256x1x32x4.Broadcasts S256x16x32x4
  reduces_S256x16x32x4_S256x16x4 : S256x16x32x4.Reduces [2] S256x16x4
  shapeCasts_S256x16x4_S256x16x1x4 : S256x16x4.ShapeCasts S256x16x1x4
  reduces_S256x16x1x4_S256x1x4 : S256x16x1x4.Reduces [1] S256x1x4
  shapeCasts_S256x1x4_S256x1x1x4 : S256x1x4.ShapeCasts S256x1x1x4
  broadcasts_S256x1x1x4_S256x16x32x4 : S256x1x1x4.Broadcasts S256x16x32x4
  shapeCasts_S256x16x32_S256x16x32x1 : S256x16x32.ShapeCasts S256x16x32x1
  broadcasts_S256x16x32x1_S256x16x32x4 : S256x16x32x1.Broadcasts S256x16x32x4
  reduces_S256x16x4_S256x4 : S256x16x4.Reduces [1] S256x4
  shapeCasts_S256x4_S256x1x4 : S256x4.ShapeCasts S256x1x4
  broadcasts_S256x1x4_S256x16x4 : S256x1x4.Broadcasts S256x16x4
  inb_S1x256x16x4_S1x256x16x4_0_0_0_0 : ∀ a, (![0, 0, 0, 0] : Fin 4 → Nat) a + S1x256x16x4.size a ≤ S1x256x16x4.size a
  h_S1x256x16x4 : 0 < S1x256x16x4.numel
  shapeCasts_S1x256x16x4_S256x16x4 : S1x256x16x4.ShapeCasts S256x16x4
  shapeCasts_S256x16x4_S1x256x16x4 : S256x16x4.ShapeCasts S1x256x16x4
  broadcasts_S256x16x1x4_S256x16x32x4 : S256x16x1x4.Broadcasts S256x16x32x4
  reduces_S256x16x32x4_S256x32x4 : S256x16x32x4.Reduces [1] S256x32x4
  shapeCasts_S256x32x4_S1x256x32x4 : S256x32x4.ShapeCasts S1x256x32x4
  shapeCasts_S4x2048x32x4_S4x2048x128 : S4x2048x32x4.ShapeCasts S4x2048x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x32x4.size a ≤ S4x2048x32x4.size a
  hwx0_0 : ∀ i : grid0.Coords, EltTy.bits .f32 = 32 ∨ (Rect.block (s := S4x2048x32x4) S1x256x32x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x32x4.size a ≤ S4x2048x32x4.size a
  hwx0_1 : ∀ i : grid0.Coords, EltTy.bits .f32 = 32 ∨ (Rect.block (s := S4x2048x32x4) S1x256x32x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x16x32x4.size a ≤ S4x2048x16x32x4.size a
  hwx0_2 : ∀ i : grid0.Coords, EltTy.bits .f32 = 32 ∨ (Rect.block (s := S4x2048x16x32x4) S1x256x16x32x4.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x16x32x4.size a ≤ S4x2048x16x32x4.size a
  hwx0_3 : ∀ i : grid0.Coords, EltTy.bits .f32 = 32 ∨ (Rect.block (s := S4x2048x16x32x4) S1x256x16x32x4.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x16x32.size a ≤ S4x2048x16x32.size a
  hwx0_4 : ∀ i : grid0.Coords, EltTy.bits .f32 = 32 ∨ (Rect.block (s := S4x2048x16x32) S1x256x16x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x32x4.size a ≤ S4x2048x32x4.size a
  hwx0_5 : ∀ i : grid0.Coords, EltTy.bits .f32 = 32 ∨ (Rect.block (s := S4x2048x32x4) S1x256x32x4.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256x16x4.size a ≤ S4x2048x16x4.size a
  hwx0_6 : ∀ i : grid0.Coords, EltTy.bits .f32 = 32 ∨ (Rect.block (s := S4x2048x16x4) S1x256x16x4.size (cc0_transform_6 i) (hinb0_6 i)).WholeWords (EltTy.packing .f32)

variable [Facts₀]

abbrev win0_0 : Pipeline.Window sig grid0 :=
  Pipeline.Window.ofSpec (Memref.whole main_v0) S1x256x32x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x256x32x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256x16x32x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x256x16x32x4.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x256x16x32.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_0) S1x256x32x4.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_1) S1x256x16x4.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x2048x128 : Shape := ⟨3, ![4, 2048, 128]⟩
abbrev S4x2048x16x128 : Shape := ⟨4, ![4, 2048, 16, 128]⟩
abbrev S4x2048x16x32 : Shape := ⟨4, ![4, 2048, 16, 32]⟩
abbrev S4x2048x32x4 : Shape := ⟨4, ![4, 2048, 32, 4]⟩
abbrev S4x2048x16x32x4 : Shape := ⟨5, ![4, 2048, 16, 32, 4]⟩
abbrev S_ : Shape := ⟨0, ![]⟩
abbrev S1 : Shape := ⟨1, ![1]⟩
abbrev S4x2048x1x32x4 : Shape := ⟨5, ![4, 2048, 1, 32, 4]⟩
abbrev S4x2048x4 : Shape := ⟨3, ![4, 2048, 4]⟩
abbrev S4x2048x1x1x4 : Shape := ⟨5, ![4, 2048, 1, 1, 4]⟩
abbrev S4x2048x16x32x1 : Shape := ⟨5, ![4, 2048, 16, 32, 1]⟩
abbrev S4x2048x16x4 : Shape := ⟨4, ![4, 2048, 16, 4]⟩
abbrev S4x2048x1x4 : Shape := ⟨4, ![4, 2048, 1, 4]⟩
abbrev S4x2048x16x1x4 : Shape := ⟨5, ![4, 2048, 16, 1, 4]⟩

abbrev nBuf : Space → Nat
  | .hbm => 44
  | .vmem => 0
  | .smem => 0
  | _ => 0

abbrev bufTy : (tb : Table) → Fin (tcTables nBuf tb) → BufTy
  | .hbm, ⟨0, _⟩ => ⟨S4x2048x128, .f32⟩
  | .hbm, ⟨1, _⟩ => ⟨S4x2048x128, .f32⟩
  | .hbm, ⟨2, _⟩ => ⟨S4x2048x16x128, .f32⟩
  | .hbm, ⟨3, _⟩ => ⟨S4x2048x16x128, .f32⟩
  | .hbm, ⟨4, _⟩ => ⟨S4x2048x16x32, .f32⟩
  | .hbm, ⟨5, _⟩ => ⟨S4x2048x32x4, .f32⟩
  | .hbm, ⟨6, _⟩ => ⟨S4x2048x32x4, .f32⟩
  | .hbm, ⟨7, _⟩ => ⟨S4x2048x16x32x4, .f32⟩
  | .hbm, ⟨8, _⟩ => ⟨S4x2048x16x32x4, .f32⟩
  | .hbm, ⟨9, _⟩ => ⟨S_, .i32⟩
  | .hbm, ⟨10, _⟩ => ⟨S1, .i32⟩
  | .hbm, ⟨11, _⟩ => ⟨S4x2048x16x32x4, .f32⟩
  | .hbm, ⟨12, _⟩ => ⟨S_, .f32⟩
  | .hbm, ⟨13, _⟩ => ⟨S4x2048x32x4, .f32⟩
  | .hbm, ⟨14, _⟩ => ⟨S4x2048x32x4, .f32⟩
  | .hbm, ⟨15, _⟩ => ⟨S4x2048x1x32x4, .f32⟩
  | .hbm, ⟨16, _⟩ => ⟨S4x2048x16x32x4, .f32⟩
  | .hbm, ⟨17, _⟩ => ⟨S4x2048x16x32x4, .f32⟩
  | .hbm, ⟨18, _⟩ => ⟨S_, .f32⟩
  | .hbm, ⟨19, _⟩ => ⟨S4x2048x4, .f32⟩
  | .hbm, ⟨20, _⟩ => ⟨S4x2048x1x1x4, .f32⟩
  | .hbm, ⟨21, _⟩ => ⟨S4x2048x16x32x4, .f32⟩
  | .hbm, ⟨22, _⟩ => ⟨S4x2048x16x32x4, .f32⟩
  | .hbm, ⟨23, _⟩ => ⟨S4x2048x16x32x1, .f32⟩
  | .hbm, ⟨24, _⟩ => ⟨S4x2048x16x32x4, .f32⟩
  | .hbm, ⟨25, _⟩ => ⟨S4x2048x16x32x4, .f32⟩
  | .hbm, ⟨26, _⟩ => ⟨S4x2048x16x32x4, .f32⟩
  | .hbm, ⟨27, _⟩ => ⟨S_, .f32⟩
  | .hbm, ⟨28, _⟩ => ⟨S4x2048x16x4, .f32⟩
  | .hbm, ⟨29, _⟩ => ⟨S4x2048x16x4, .f32⟩
  | .hbm, ⟨30, _⟩ => ⟨S_, .f32⟩
  | .hbm, ⟨31, _⟩ => ⟨S4x2048x4, .f32⟩
  | .hbm, ⟨32, _⟩ => ⟨S4x2048x1x4, .f32⟩
  | .hbm, ⟨33, _⟩ => ⟨S_, .f32⟩
  | .hbm, ⟨34, _⟩ => ⟨S4x2048x1x4, .f32⟩
  | .hbm, ⟨35, _⟩ => ⟨S4x2048x1x4, .f32⟩
  | .hbm, ⟨36, _⟩ => ⟨S4x2048x16x4, .f32⟩
  | .hbm, ⟨37, _⟩ => ⟨S4x2048x16x4, .f32⟩
  | .hbm, ⟨38, _⟩ => ⟨S4x2048x16x1x4, .f32⟩
  | .hbm, ⟨39, _⟩ => ⟨S4x2048x16x32x4, .f32⟩
  | .hbm, ⟨40, _⟩ => ⟨S4x2048x16x32x4, .f32⟩
  | .hbm, ⟨41, _⟩ => ⟨S_, .f32⟩
  | .hbm, ⟨42, _⟩ => ⟨S4x2048x32x4, .f32⟩
  | .hbm, ⟨43, _⟩ => ⟨S4x2048x128, .f32⟩
  | _, _ => ⟨S4x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]

class Facts₀ : Prop where
  shapeCasts_S4x2048x128_S4x2048x32x4 : S4x2048x128.ShapeCasts S4x2048x32x4
  shapeCasts_S4x2048x16x128_S4x2048x16x32x4 : S4x2048x16x128.ShapeCasts S4x2048x16x32x4
  bcast_S_S1 : S_.BroadcastsInDim S1 (![] : Fin 0 → Fin S1.rank)
  bcast_S_S4x2048x32x4 : S_.BroadcastsInDim S4x2048x32x4 (![] : Fin 0 → Fin S4x2048x32x4.rank)
  bcast_S4x2048x32x4_S4x2048x1x32x4_0_1_3_4 : S4x2048x32x4.BroadcastsInDim S4x2048x1x32x4 (![0, 1, 3, 4] : Fin 4 → Fin S4x2048x1x32x4.rank)
  bcast_S4x2048x1x32x4_S4x2048x16x32x4_0_1_2_3_4 : S4x2048x1x32x4.BroadcastsInDim S4x2048x16x32x4 (![0, 1, 2, 3, 4] : Fin 5 → Fin S4x2048x16x32x4.rank)
  reducesTo_S4x2048x16x32x4_S4x2048x4_d2_3 : S4x2048x16x32x4.ReducesTo [2, 3] S4x2048x4
  h_S_ : 0 < S_.numel
  bcast_S4x2048x4_S4x2048x1x1x4_0_1_4 : S4x2048x4.BroadcastsInDim S4x2048x1x1x4 (![0, 1, 4] : Fin 3 → Fin S4x2048x1x1x4.rank)
  bcast_S4x2048x1x1x4_S4x2048x16x32x4_0_1_2_3_4 : S4x2048x1x1x4.BroadcastsInDim S4x2048x16x32x4 (![0, 1, 2, 3, 4] : Fin 5 → Fin S4x2048x16x32x4.rank)
  bcast_S4x2048x16x32_S4x2048x16x32x1_0_1_2_3 : S4x2048x16x32.BroadcastsInDim S4x2048x16x32x1 (![0, 1, 2, 3] : Fin 4 → Fin S4x2048x16x32x1.rank)
  bcast_S4x2048x16x32x1_S4x2048x16x32x4_0_1_2_3_4 : S4x2048x16x32x1.BroadcastsInDim S4x2048x16x32x4 (![0, 1, 2, 3, 4] : Fin 5 → Fin S4x2048x16x32x4.rank)
  reducesTo_S4x2048x16x32x4_S4x2048x16x4_d3 : S4x2048x16x32x4.ReducesTo [3] S4x2048x16x4
  reducesTo_S4x2048x16x4_S4x2048x4_d2 : S4x2048x16x4.ReducesTo [2] S4x2048x4
  bcast_S4x2048x4_S4x2048x1x4_0_1_3 : S4x2048x4.BroadcastsInDim S4x2048x1x4 (![0, 1, 3] : Fin 3 → Fin S4x2048x1x4.rank)
  bcast_S_S4x2048x1x4 : S_.BroadcastsInDim S4x2048x1x4 (![] : Fin 0 → Fin S4x2048x1x4.rank)
  bcast_S4x2048x1x4_S4x2048x16x4_0_1_2_3 : S4x2048x1x4.BroadcastsInDim S4x2048x16x4 (![0, 1, 2, 3] : Fin 4 → Fin S4x2048x16x4.rank)
  bcast_S4x2048x16x4_S4x2048x16x1x4_0_1_2_4 : S4x2048x16x4.BroadcastsInDim S4x2048x16x1x4 (![0, 1, 2, 4] : Fin 4 → Fin S4x2048x16x1x4.rank)
  bcast_S4x2048x16x1x4_S4x2048x16x32x4_0_1_2_3_4 : S4x2048x16x1x4.BroadcastsInDim S4x2048x16x32x4 (![0, 1, 2, 3, 4] : Fin 5 → Fin S4x2048x16x32x4.rank)
  reducesTo_S4x2048x16x32x4_S4x2048x32x4_d2 : S4x2048x16x32x4.ReducesTo [2] S4x2048x32x4
  shapeCasts_S4x2048x32x4_S4x2048x128 : S4x2048x32x4.ShapeCasts S4x2048x128
  scatter_S4x2048x16x32x4_S1_S4x2048x32x4_0123_2_2_0_wf : ScatterDims.WF S4x2048x16x32x4 S1 S4x2048x32x4 [0, 1, 2, 3] [2] [2] 0

variable [Facts₀]

def scatter_S4x2048x16x32x4_S1_S4x2048x32x4_0123_2_2_0 : ScatterDims S4x2048x16x32x4 S1 S4x2048x32x4 where
  updateWindowDims := [0, 1, 2, 3]
  insertedWindowDims := [2]
  scatterDimsToOperandDims := [2]
  indexVectorDim := 0
  wf := scatter_S4x2048x16x32x4_S1_S4x2048x32x4_0123_2_2_0_wf

class Facts : Prop extends Facts₀ where

variable [Facts]
-- ==== Proof.Spec.lean ====
/-
  What one node computes.

  A node (a batch entry `b` and a position `l`) has sixteen neighbour slots `k`, thirty-two graph features `f` (or output
  features `o`) and four heads `h`. Its data are the rows `β`, `σ` (`beta` and the self-attention term, by feature and head),
  the attention coefficients `a` and the neighbours' outputs `ν` (by slot, feature and head) and the graph weights `g` (by
  slot and feature). Every node is computed independently of every other, so the whole result is this one function of a
  node's rows, laid out over the batch and the positions (`coeffArr`, `aggArr` below).

  The steps, on the extended reals:
    * slot 0 takes the self-attention term, and every slot is scaled by `β + ε`:      `scaled k f h`;
    * the largest scaled coefficient over all slots and features, per head:            `peak h`;
    * `exp (scaled − peak)`, weighted by the graph weights and summed over features:  `mass k h`;
    * the masses normalised by the sum over slots of their absolute values, plus `ε`:   `coeff k h`  (the second result);
    * the neighbours' outputs combined with these coefficients, summed over slots:     `agg o h`    (the first result).
  `ε` is the single-precision word both programs write for `1e-6`; it is never evaluated.
-/
import Idealize.ShloMosaic.PureOps.Ideal
import Idealize.ShloMosaic.PureOps.Ideal.Laws
import Idealize.ShloMosaic.Lib.ValueIdx

noncomputable section

namespace Cert.NodeAgg

open Idealize.ShloMosaic Idealize.ShloMosaic.ValueIdx

/-- The small constant added to `β` and to the normaliser: the same word in both programs. -/
abbrev eps : EReal := Ideal.ofBits .f32 0x358637BD#32

/-- The word both maxima start from denotes `−∞`, the bottom of the extended reals. -/
theorem ofBits_negInf : Ideal.ofBits .f32 0xFF800000#32 = (⊥ : EReal) := by
  simp [Ideal.ofBits, Ideal.ieee]

section Node

variable (β σ : Fin 32 → Fin 4 → EReal) (a ν : Fin 16 → Fin 32 → Fin 4 → EReal) (g : Fin 16 → Fin 32 → EReal)

/-- A slot's coefficient after the self-attention term has gone into slot 0 and the row has been scaled by `β + ε`. -/
def scaled (k : Fin 16) (f : Fin 32) (h : Fin 4) : EReal :=
  (if k.val = 0 then a k f h + σ f h else a k f h) * (β f h + eps)

/-- The largest scaled coefficient of a head, over all slots and features (`⊥` is `−∞`, where both maxima start). -/
def peak (h : Fin 4) : EReal :=
  (Finset.univ : Finset (Fin 16)).fold max ⊥ fun k => (Finset.univ : Finset (Fin 32)).fold max ⊥ fun f => scaled β σ a k f h

/-- The stabilised exponential of a scaled coefficient. -/
def weight (k : Fin 16) (f : Fin 32) (h : Fin 4) : EReal :=
  Ideal.exp (scaled β σ a k f h - peak β σ a h)

/-- A slot's mass for a head: its weights summed over the features with the graph weights. -/
def mass (k : Fin 16) (h : Fin 4) : EReal :=
  ∑ f : Fin 32, g k f * weight β σ a k f h

/-- The sum over the slots of the absolute masses of a head. -/
def total (h : Fin 4) : EReal :=
  ∑ k : Fin 16, max (mass β σ a g k h) (-(mass β σ a g k h))

/-- The normalised coefficient of a slot and head: the second result. -/
def coeff (k : Fin 16) (h : Fin 4) : EReal :=
  Ideal.div (mass β σ a g k h) (total β σ a g h + eps)

/-- The neighbours' outputs combined with the normalised coefficients: the first result, before it is laid flat. -/
def agg (o : Fin 32) (h : Fin 4) : EReal :=
  ∑ k : Fin 16, ν k o h * coeff β σ a g k h

end Node

/-! ## The whole arrays -/

/-- `[4, 2048, 32, 4]`: a row by feature and head at every node (`beta`, the self-attention term, the first result). -/
abbrev SQ : Shape := ⟨4, ![4, 2048, 32, 4]⟩
/-- `[4, 2048, 16, 32, 4]`: by slot, feature and head at every node (the attention coefficients, the neighbours' outputs). -/
abbrev SN : Shape := ⟨5, ![4, 2048, 16, 32, 4]⟩
/-- `[4, 2048, 16, 32]`: the graph weights. -/
abbrev SW : Shape := ⟨4, ![4, 2048, 16, 32]⟩
/-- `[4, 2048, 16, 4]`: the normalised coefficients. -/
abbrev SC : Shape := ⟨4, ![4, 2048, 16, 4]⟩

variable (beta sa : SQ.Idx → EReal) (ac no : SN.Idx → EReal) (gw : SW.Idx → EReal)

/-- Node `(b, l)`'s rows out of the whole arrays. -/
abbrev rowQ (x : SQ.Idx → EReal) (b : Fin 4) (l : Fin 2048) : Fin 32 → Fin 4 → EReal := fun f h => x (ix4 b l f h)
abbrev rowN (x : SN.Idx → EReal) (b : Fin 4) (l : Fin 2048) : Fin 16 → Fin 32 → Fin 4 → EReal := fun k f h => x (ix5 b l k f h)
abbrev rowW (x : SW.Idx → EReal) (b : Fin 4) (l : Fin 2048) : Fin 16 → Fin 32 → EReal := fun k f => x (ix4 b l k f)

/-- The normalised coefficients of every node. -/
def coeffArr : SC.Idx → EReal := fun i =>
  coeff (rowQ beta (i 0) (i 1)) (rowQ sa (i 0) (i 1)) (rowN ac (i 0) (i 1)) (rowW gw (i 0) (i 1)) (i 2) (i 3)

/-- The combined outputs of every node, by output feature and head. -/
def aggArr : SQ.Idx → EReal := fun i =>
  agg (rowQ beta (i 0) (i 1)) (rowQ sa (i 0) (i 1)) (rowN ac (i 0) (i 1)) (rowN no (i 0) (i 1)) (rowW gw (i 0) (i 1)) (i 2) (i 3)

theorem coeffArr_apply (b : Fin 4) (l : Fin 2048) (k : Fin 16) (h : Fin 4) :
    coeffArr beta sa ac gw (ix4 b l k h) = coeff (rowQ beta b l) (rowQ sa b l) (rowN ac b l) (rowW gw b l) k h := rfl

theorem aggArr_apply (b : Fin 4) (l : Fin 2048) (o : Fin 32) (h : Fin 4) :
    aggArr beta sa ac no gw (ix4 b l o h) = agg (rowQ beta b l) (rowQ sa b l) (rowN ac b l) (rowN no b l) (rowW gw b l) o h := rfl

end Cert.NodeAgg

end
-- ==== Proof.KerWeight.lean ====
/-
  The kernel's stabilised exponentials, read at an index of a block.

  A block holds 256 consecutive nodes of one batch entry. The kernel puts the self-attention rows into slot 0 by a 0/1 mask
  over the slot axis (1 times a value is the value, 0 times a value is 0, and adding 0 changes nothing), scales by `β + ε`,
  takes the maximum over the features and then over the slots, each from `−∞`, subtracts it and exponentiates. Read at row
  `r`, slot `k`, feature `f`, head `h` that is the node function's `weight` of row `r`'s data.
-/
import proofs.«115344_j18090402250757_1_alg».proof.Proof.Gen.KernelIdeal.Skeleton
import proofs.«115344_j18090402250757_1_alg».proof.Proof.Spec
import Idealize.ShloMosaic.Lib.Pipeline.Value
import Idealize.ShloMosaic.Lib.ValueLayout
import Idealize.ShloMosaic.PureOps.Ideal.Laws

noncomputable section

namespace Cert.NodeAgg.Ker

open Idealize.ShloMosaic Idealize.ShloMosaic.ValueIdx Cert.KernelIdeal Cert.KernelIdeal.Gen

/-- Row `r` of a block of rows by feature and head. -/
abbrev blkQ (x : Vec Ideal S1x256x32x4 .f32) (r : Fin 256) : Fin 32 → Fin 4 → EReal := fun f h => x (ix4 (0 : Fin 1) r f h)
/-- Row `r` of a block by slot, feature and head. -/
abbrev blkN (x : Vec Ideal S1x256x16x32x4 .f32) (r : Fin 256) : Fin 16 → Fin 32 → Fin 4 → EReal := fun k f h => x (ix5 (0 : Fin 1) r k f h)
/-- Row `r` of a block of graph weights. -/
abbrev blkW (x : Vec Ideal S1x256x16x32 .f32) (r : Fin 256) : Fin 16 → Fin 32 → EReal := fun k f => x (ix4 (0 : Fin 1) r k f)

/-! ## Layout operations of the body, read at an index

Each is one shape cast or broadcast between the literal shapes the body uses. A shape cast keeps the row-major position,
so adding or dropping an axis of extent 1 keeps the other coordinates; a broadcast reads the operand at the same
coordinates, `0` on the operand's axes of extent 1. -/

section Layout
variable {α : Type}

/-- Dropping the leading unit axis of a `[1, 256, 32, 4]` block: entry `(r, f, h)` is the block's `(0, r, f, h)`. -/
theorem dropUnit_rows_apply (v : S1x256x32x4.Idx → α) (hc : S1x256x32x4.ShapeCasts S256x32x4)
    (r : Fin 256) (f : Fin 32) (h : Fin 4) :
    shapeCast S256x32x4 v hc (ix3 r f h) = v (ix4 (0 : Fin 1) r f h) := by
  refine shapeCast_apply v hc _ _ ?_
  rw [Shape.rowMajor_val_four, Shape.rowMajor_val_three]
  show (((0 * 256 + r.val) * 32 + f.val) * 4 + h.val) = ((r.val * 32 + f.val) * 4 + h.val)
  omega

/-- Dropping the leading unit axis of a `[1, 256, 16, 32, 4]` block: entry `(r, k, f, h)` is the block's `(0, r, k, f, h)`. -/
theorem dropUnit_slots_apply (v : S1x256x16x32x4.Idx → α) (hc : S1x256x16x32x4.ShapeCasts S256x16x32x4)
    (r : Fin 256) (k : Fin 16) (f : Fin 32) (h : Fin 4) :
    shapeCast S256x16x32x4 v hc (ix4 r k f h) = v (ix5 (0 : Fin 1) r k f h) := by
  refine shapeCast_apply v hc _ _ ?_
  rw [Shape.rowMajor_val_five, Shape.rowMajor_val_four]
  show ((((0 * 256 + r.val) * 16 + k.val) * 32 + f.val) * 4 + h.val) = (((r.val * 16 + k.val) * 32 + f.val) * 4 + h.val)
  omega

/-- A unit slot axis put into `[256, 32, 4]`: entry `(r, u, f, h)` of `[256, 1, 32, 4]` is the operand's `(r, f, h)`. -/
theorem addSlotAxis_apply (v : S256x32x4.Idx → α) (hc : S256x32x4.ShapeCasts S256x1x32x4)
    (r : Fin 256) (u : Fin 1) (f : Fin 32) (h : Fin 4) :
    shapeCast S256x1x32x4 v hc (ix4 r u f h) = v (ix3 r f h) := by
  refine shapeCast_apply v hc _ _ ?_
  rw [Shape.rowMajor_val_four, Shape.rowMajor_val_three]
  show ((r.val * 32 + f.val) * 4 + h.val) = (((r.val * 1 + u.val) * 32 + f.val) * 4 + h.val)
  omega

/-- A `[256, 1, 32, 4]` vector broadcast over the sixteen slots reads, at every slot, its one slot. -/
theorem bcastSlots_apply (v : S256x1x32x4.Idx → α) (hb : S256x1x32x4.Broadcasts S256x16x32x4)
    (r : Fin 256) (k : Fin 16) (f : Fin 32) (h : Fin 4) :
    broadcastTo S256x16x32x4 v hb (ix4 r k f h) = v (ix4 r (0 : Fin 1) f h) := by
  refine broadcastTo_apply v hb _ _ fun a => ?_
  match a with
  | ⟨0, _⟩ => rfl
  | ⟨1, _⟩ => rfl
  | ⟨2, _⟩ => rfl
  | ⟨3, _⟩ => rfl

/-- A `[1, 16, 1, 1]` vector (one value per slot) broadcast to `[256, 16, 32, 4]` reads, at `(r, k, f, h)`, its value at slot `k`. -/
theorem bcastMask_apply (v : S1x16x1x1.Idx → α) (hb : S1x16x1x1.Broadcasts S256x16x32x4)
    (r : Fin 256) (k : Fin 16) (f : Fin 32) (h : Fin 4) :
    broadcastTo S256x16x32x4 v hb (ix4 r k f h) = v (ix4 (0 : Fin 1) k (0 : Fin 1) (0 : Fin 1)) := by
  refine broadcastTo_apply v hb _ _ fun a => ?_
  match a with
  | ⟨0, _⟩ => rfl
  | ⟨1, _⟩ => rfl
  | ⟨2, _⟩ => rfl
  | ⟨3, _⟩ => rfl

/-- The reduced feature axis kept with extent 1: entry `(r, k, u, h)` of `[256, 16, 1, 4]` is the operand's `(r, k, h)`. -/
theorem keepFeatAxis_apply (v : S256x16x4.Idx → α) (hc : S256x16x4.ShapeCasts S256x16x1x4)
    (r : Fin 256) (k : Fin 16) (u : Fin 1) (h : Fin 4) :
    shapeCast S256x16x1x4 v hc (ix4 r k u h) = v (ix3 r k h) := by
  refine shapeCast_apply v hc _ _ ?_
  rw [Shape.rowMajor_val_four, Shape.rowMajor_val_three]
  show ((r.val * 16 + k.val) * 4 + h.val) = (((r.val * 16 + k.val) * 1 + u.val) * 4 + h.val)
  omega

/-- The reduced slot axis kept with extent 1: entry `(r, u, u', h)` of `[256, 1, 1, 4]` is the operand's `(r, 0, h)`. -/
theorem keepSlotAxis_apply (v : S256x1x4.Idx → α) (hc : S256x1x4.ShapeCasts S256x1x1x4)
    (r : Fin 256) (u u' : Fin 1) (h : Fin 4) :
    shapeCast S256x1x1x4 v hc (ix4 r u u' h) = v (ix3 r (0 : Fin 1) h) := by
  refine shapeCast_apply v hc _ _ ?_
  rw [Shape.rowMajor_val_four, Shape.rowMajor_val_three]
  show ((r.val * 1 + 0) * 4 + h.val) = (((r.val * 1 + u.val) * 1 + u'.val) * 4 + h.val)
  omega

/-- A `[256, 1, 1, 4]` vector (one value per row and head) broadcast over the slots and features. -/
theorem bcastPeak_apply (v : S256x1x1x4.Idx → α) (hb : S256x1x1x4.Broadcasts S256x16x32x4)
    (r : Fin 256) (k : Fin 16) (f : Fin 32) (h : Fin 4) :
    broadcastTo S256x16x32x4 v hb (ix4 r k f h) = v (ix4 r (0 : Fin 1) (0 : Fin 1) h) := by
  refine broadcastTo_apply v hb _ _ fun a => ?_
  match a with
  | ⟨0, _⟩ => rfl
  | ⟨1, _⟩ => rfl
  | ⟨2, _⟩ => rfl
  | ⟨3, _⟩ => rfl

end Layout

/-! ## The slot mask

The body compares the slot number with `0`, widens the resulting bit to a 32-bit word and converts that word, read
signed, to a float: the extended real `1` at slot 0 and `0` at every other slot. -/

/-- The word the slot mask is converted from, read signed: `1` at slot 0, `0` elsewhere. A slot number is below 16, so
    as a 32-bit word it is the zero word only when it is `0`. -/
theorem slotWord_toInt (k : Fin 16) :
    ((BitVec.ofBool (BitVec.ofNat 32 k.val == 0#32)).setWidth 32).toInt = if k.val = 0 then 1 else 0 := by
  by_cases hk : k.val = 0
  · rw [if_pos hk, hk]; decide
  · rw [if_neg hk]
    have hne : (BitVec.ofNat 32 k.val == 0#32) = false := by
      rw [beq_eq_false_iff_ne]
      intro e
      have h2 := congrArg BitVec.toNat e
      rw [BitVec.toNat_ofNat] at h2
      have := k.isLt
      have h3 : k.val % 2 ^ 32 = k.val := Nat.mod_eq_of_lt (by omega)
      rw [h3] at h2
      exact hk h2
    rw [hne]; decide

/-- The slot mask at slot `k`, as an extended real: `1` at slot 0 and `0` elsewhere. -/
theorem slotMask_apply (hi : S1x16x1x1.Iotas .tc 32 [1]) (hlt : 1 < 32) (k : Fin 16) :
    (sitofp (F := Ideal) .f32 (extui 32 (cmpi .eq (iota .tc S1x16x1x1 32 [1] hi) (broadcast S1x16x1x1 0#32)) hlt)
      : FVec Ideal S1x16x1x1 .f32) (ix4 (0 : Fin 1) k (0 : Fin 1) (0 : Fin 1)) = if k.val = 0 then (1 : EReal) else 0 := by
  show ((((IntOp.cmpi .eq (iota .tc S1x16x1x1 32 [1] hi (ix4 (0 : Fin 1) k (0 : Fin 1) (0 : Fin 1))) 0#32).setWidth 32).toInt : ℝ) : EReal) = _
  rw [iota_single_apply]
  show ((((BitVec.ofBool (BitVec.ofNat 32 k.val == 0#32)).setWidth 32).toInt : ℝ) : EReal) = _
  rw [slotWord_toInt]
  split <;> simp

/-! ## The two maxima

A maximum over one axis from the word of `−∞` is the fold of `max` from `⊥` over that axis's coordinates; the index the
fold reads is the result index with the coordinate put back on the reduced axis. -/

/-- The maximum over the features, at row `r`, slot `k`, head `h`. -/
theorem maxFeat_apply (src : FVec Ideal S256x16x32x4 .f32) (hr : S256x16x32x4.Reduces [2] S256x16x4)
    (hφ : FKind.Formats .f32) (hacc : (0xFF800000#32 : BitVec 32) = FKind.maximumf.neutral .f32 hφ)
    (r : Fin 256) (k : Fin 16) (h : Fin 4) :
    multiReduction (F := Ideal) .maximumf [2] S256x16x4 src 0xFF800000#32 hr hφ hacc (ix3 r k h)
      = (Finset.univ : Finset (Fin 32)).fold max ⊥ fun f => src (ix4 r k f h) := by
  refine (Ideal.multiReduction_maximumf_single src _ hr hφ hacc _).trans ?_
  rw [Ideal.ofBits_def, ofBits_negInf]
  refine congrArg (fun g => (Finset.univ : Finset (Fin 32)).fold max (⊥ : EReal) g) ?_
  funext f
  refine congrArg src (funext fun a => Fin.ext ?_)
  match a with
  | ⟨0, _⟩ => rfl
  | ⟨1, _⟩ => rfl
  | ⟨2, _⟩ => rfl
  | ⟨3, _⟩ => rfl

/-- The maximum over the slots of a vector whose feature axis has extent 1, at row `r` and head `h`. -/
theorem maxSlot_apply (src : FVec Ideal S256x16x1x4 .f32) (hr : S256x16x1x4.Reduces [1] S256x1x4)
    (hφ : FKind.Formats .f32) (hacc : (0xFF800000#32 : BitVec 32) = FKind.maximumf.neutral .f32 hφ)
    (r : Fin 256) (u : Fin 1) (h : Fin 4) :
    multiReduction (F := Ideal) .maximumf [1] S256x1x4 src 0xFF800000#32 hr hφ hacc (ix3 r u h)
      = (Finset.univ : Finset (Fin 16)).fold max ⊥ fun k => src (ix4 r k (0 : Fin 1) h) := by
  refine (Ideal.multiReduction_maximumf_single src _ hr hφ hacc _).trans ?_
  rw [Ideal.ofBits_def, ofBits_negInf]
  refine congrArg (fun g => (Finset.univ : Finset (Fin 16)).fold max (⊥ : EReal) g) ?_
  funext k
  refine congrArg src (funext fun a => Fin.ext ?_)
  match a with
  | ⟨0, _⟩ => rfl
  | ⟨1, _⟩ => rfl
  | ⟨2, _⟩ => show u.val = 0; have := u.isLt; omega
  | ⟨3, _⟩ => rfl

/-! ## The body's arithmetic at one entry -/

/-- The body's product before the maxima, at one entry. With `m` the slot mask, the entry is
    `(a + m · σ) · (β + ε)`; at slot 0, `m = 1` and `1 · σ = σ`; elsewhere `m = 0`, `0 · σ = 0` and `a + 0 = a`. Both hold
    for every extended real, so nothing is asked of the inputs. -/
theorem scaledVec_apply (x0 x1 : Vec Ideal S1x256x32x4 .f32) (x2 : Vec Ideal S1x256x16x32x4 .f32)
    (hq : S1x256x32x4.ShapeCasts S256x32x4) (hn : S1x256x16x32x4.ShapeCasts S256x16x32x4)
    (hi : S1x16x1x1.Iotas .tc 32 [1]) (hlt : 1 < 32) (hs : S256x32x4.ShapeCasts S256x1x32x4)
    (hbm : S1x16x1x1.Broadcasts S256x16x32x4) (hbs : S256x1x32x4.Broadcasts S256x16x32x4)
    (r : Fin 256) (k : Fin 16) (f : Fin 32) (h : Fin 4) :
    mulf (F := Ideal)
        (addf (shapeCast S256x16x32x4 x2 hn)
          (mulf
            (broadcastTo S256x16x32x4
              (sitofp (F := Ideal) .f32 (extui 32 (cmpi .eq (iota .tc S1x16x1x1 32 [1] hi) (broadcast S1x16x1x1 0#32)) hlt)) hbm)
            (broadcastTo S256x16x32x4 (shapeCast S256x1x32x4 (shapeCast S256x32x4 x1 hq) hs) hbs)))
        (broadcastTo S256x16x32x4
          (shapeCast S256x1x32x4
            (addf (shapeCast S256x32x4 x0 hq) (broadcast S256x32x4 (Scalar.ofBits (F := Ideal) .f32 0x358637BD#32))) hs) hbs)
        (ix4 r k f h)
      = scaled (blkQ x0 r) (blkQ x1 r) (blkN x2 r) k f h := by
  rw [mulf_apply, addf_apply, mulf_apply, dropUnit_slots_apply, bcastMask_apply, slotMask_apply, bcastSlots_apply,
    addSlotAxis_apply, dropUnit_rows_apply, bcastSlots_apply, addSlotAxis_apply, addf_apply, dropUnit_rows_apply,
    broadcast_apply]
  show (x2 (ix5 (0 : Fin 1) r k f h) + (if k.val = 0 then (1 : EReal) else 0) * x1 (ix4 (0 : Fin 1) r f h))
      * (x0 (ix4 (0 : Fin 1) r f h) + eps)
    = (if k.val = 0 then x2 (ix5 (0 : Fin 1) r k f h) + x1 (ix4 (0 : Fin 1) r f h) else x2 (ix5 (0 : Fin 1) r k f h))
      * (x0 (ix4 (0 : Fin 1) r f h) + eps)
  by_cases hk : k.val = 0
  · rw [if_pos hk, if_pos hk, one_mul]
  · rw [if_neg hk, if_neg hk, zero_mul, add_zero]

/-- The body's tail. If a vector `V` reads, along row `r` and head `h`, the scaled coefficients of a node, then the maximum
    over the features and then over the slots, each from `−∞`, is the node's `peak`, and the exponential of `V` less that
    maximum is the node's `weight`. -/
theorem weight_of_scaled (V : FVec Ideal S256x16x32x4 .f32) (β σ : Fin 32 → Fin 4 → EReal) (a : Fin 16 → Fin 32 → Fin 4 → EReal)
    (hr2 : S256x16x32x4.Reduces [2] S256x16x4) (hc2 : S256x16x4.ShapeCasts S256x16x1x4)
    (hr1 : S256x16x1x4.Reduces [1] S256x1x4) (hc1 : S256x1x4.ShapeCasts S256x1x1x4)
    (hbp : S256x1x1x4.Broadcasts S256x16x32x4)
    (hφ hφ' : FKind.Formats .f32) (hacc : (0xFF800000#32 : BitVec 32) = FKind.maximumf.neutral .f32 hφ)
    (hacc' : (0xFF800000#32 : BitVec 32) = FKind.maximumf.neutral .f32 hφ')
    (r : Fin 256) (k : Fin 16) (f : Fin 32) (h : Fin 4)
    (hV : ∀ (k' : Fin 16) (f' : Fin 32), V (ix4 r k' f' h) = scaled β σ a k' f' h) :
    exp (F := Ideal)
        (subf V
          (broadcastTo S256x16x32x4
            (shapeCast S256x1x1x4
              (multiReduction (F := Ideal) .maximumf [1] S256x1x4
                (shapeCast S256x16x1x4 (multiReduction (F := Ideal) .maximumf [2] S256x16x4 V 0xFF800000#32 hr2 hφ hacc) hc2)
                0xFF800000#32 hr1 hφ' hacc') hc1) hbp))
        (ix4 r k f h)
      = weight β σ a k f h := by
  show Ideal.exp (V (ix4 r k f h) - _) = Ideal.exp (scaled β σ a k f h - peak β σ a h)
  rw [hV, bcastPeak_apply, keepSlotAxis_apply, maxSlot_apply]
  refine congrArg (fun m => Ideal.exp (scaled β σ a k f h - m)) ?_
  refine congrArg (fun g => (Finset.univ : Finset (Fin 16)).fold max (⊥ : EReal) g) (funext fun k' => ?_)
  rw [keepFeatAxis_apply, maxFeat_apply]
  exact congrArg (fun g => (Finset.univ : Finset (Fin 32)).fold max (⊥ : EReal) g) (funext fun f' => hV k' f')

/-- The kernel's exponentials at `(r, k, f, h)` are the node function's weights of row `r`. -/
theorem weight_apply (x0 x1 : Vec Ideal S1x256x32x4 .f32) (x2 : Vec Ideal S1x256x16x32x4 .f32)
    (r : Fin 256) (k : Fin 16) (f : Fin 32) (h : Fin 4) :
    k0_pay6 (F := Ideal) x0 x1 x2 (ix4 r k f h) = weight (blkQ x0 r) (blkQ x1 r) (blkN x2 r) k f h := by
  -- the body is the tail applied to the product before the maxima, which reads the scaled coefficients of row `r`
  unfold k0_pay6
  refine weight_of_scaled _ (blkQ x0 r) (blkQ x1 r) (blkN x2 r) _ _ _ _ _ _ _ _ _ r k f h fun k' f' => ?_
  exact scaledVec_apply x0 x1 x2 _ _ _ _ _ _ _ r k' f' h

end Cert.NodeAgg.Ker

end
-- ==== Proof.KerCoeff.lean ====
/-
  The kernel's two stored blocks, read at an index.

  From the exponentials the kernel sums over the features with the graph weights, divides by the sum over the slots of the
  absolute values plus `ε` and stores the quotients (the second result's block); it then multiplies the neighbours' outputs by
  the quotients, sums over the slots and stores that (the first result's block). Read at a row these are the node
  function's `coeff` and `agg` of the row's data.

  Every step is read at one index. A cast that adds or drops an axis of extent one keeps each entry (the two indices have
  the same row-major position), a broadcast along such an axis repeats the entry at coordinate 0, a product, a sum of two
  arrays, an absolute value and a quotient act entry by entry, and a sum over one axis is the finite sum over that axis's
  coordinates. On the extended reals the absolute value of `x` is `max x (-x)`, which is how the node function writes it.
  So the quotient at `(r, k, h)` is
      (∑ f, g (r,k,f) · w (r,k,f,h)) / ((∑ k', |∑ f, g (r,k',f) · w (r,k',f,h)|) + ε)
  for any arrays `g`, `w`; with `g` the graph-weight block and `w` the kernel's exponentials, which are the node
  function's weights of row `r`, the inner sums are the masses and the quotient is the row's coefficient. The combined
  output at `(r, o, h)` is then `∑ k, ν (r,k,o,h) · coeff k h`.
-/
import proofs.«115344_j18090402250757_1_alg».proof.Proof.KerWeight

noncomputable section

namespace Cert.NodeAgg.Ker

open Idealize.ShloMosaic Idealize.ShloMosaic.ValueIdx Cert.KernelIdeal Cert.KernelIdeal.Gen

/-! ## The three sums, each over one axis -/

/-- Summing a `[256, 16, 32, 4]` array over its feature axis: at `(r, k, h)` the sum over `f` of the entries `(r, k, f, h)`. -/
theorem sum_features_apply (src : FVec Ideal S256x16x32x4 .f32) (hr : S256x16x32x4.Reduces [2] S256x16x4)
    (hφ : FKind.Formats .f32) (hacc : (0x00000000#32 : BitVec 32) = FKind.add.neutral .f32 hφ)
    (r : Fin 256) (k : Fin 16) (h : Fin 4) :
    multiReduction .add [2] S256x16x4 src 0x00000000#32 hr hφ hacc (ix3 r k h) = ∑ f : Fin 32, src (ix4 r k f h) := by
  refine (Ideal.multiReduction_add_single src _ hr hφ hacc (ix3 r k h)).trans ?_
  exact Finset.sum_congr rfl fun f _ => congrArg src (funext fun a => Fin.ext (by
    match a with | ⟨0, _⟩ => rfl | ⟨1, _⟩ => rfl | ⟨2, _⟩ => rfl | ⟨3, _⟩ => rfl))

/-- Summing a `[256, 16, 4]` array over its slot axis: at `(r, h)` the sum over `k` of the entries `(r, k, h)`. -/
theorem sum_slots3_apply (src : FVec Ideal S256x16x4 .f32) (hr : S256x16x4.Reduces [1] S256x4)
    (hφ : FKind.Formats .f32) (hacc : (0x00000000#32 : BitVec 32) = FKind.add.neutral .f32 hφ)
    (r : Fin 256) (h : Fin 4) :
    multiReduction .add [1] S256x4 src 0x00000000#32 hr hφ hacc (ix2 r h) = ∑ k : Fin 16, src (ix3 r k h) := by
  refine (Ideal.multiReduction_add_single src _ hr hφ hacc (ix2 r h)).trans ?_
  exact Finset.sum_congr rfl fun k _ => congrArg src (funext fun a => Fin.ext (by
    match a with | ⟨0, _⟩ => rfl | ⟨1, _⟩ => rfl | ⟨2, _⟩ => rfl))

/-- Summing a `[256, 16, 32, 4]` array over its slot axis: at `(r, o, h)` the sum over `k` of the entries `(r, k, o, h)`. -/
theorem sum_slots4_apply (src : FVec Ideal S256x16x32x4 .f32) (hr : S256x16x32x4.Reduces [1] S256x32x4)
    (hφ : FKind.Formats .f32) (hacc : (0x00000000#32 : BitVec 32) = FKind.add.neutral .f32 hφ)
    (r : Fin 256) (o : Fin 32) (h : Fin 4) :
    multiReduction .add [1] S256x32x4 src 0x00000000#32 hr hφ hacc (ix3 r o h) = ∑ k : Fin 16, src (ix4 r k o h) := by
  refine (Ideal.multiReduction_add_single src _ hr hφ hacc (ix3 r o h)).trans ?_
  exact Finset.sum_congr rfl fun k _ => congrArg src (funext fun a => Fin.ext (by
    match a with | ⟨0, _⟩ => rfl | ⟨1, _⟩ => rfl | ⟨2, _⟩ => rfl | ⟨3, _⟩ => rfl))

/-! ## The casts that add a unit axis, and the broadcasts along it -/

variable {α : Type}

/-- `[256, 16, 32]` viewed as `[256, 16, 32, 1]`: the entry `(r, k, f, 0)` is the entry `(r, k, f)`. -/
theorem cast_unit_last_apply (v : S256x16x32.Idx → α) (hc : S256x16x32.ShapeCasts S256x16x32x1)
    (r : Fin 256) (k : Fin 16) (f : Fin 32) (u : Fin 1) :
    shapeCast S256x16x32x1 v hc (ix4 r k f u) = v (ix3 r k f) :=
  shapeCast_apply v hc _ _ (by
    have hu : u.val = 0 := by omega
    rw [Shape.rowMajor_val_three, Shape.rowMajor_val_four]
    show (r.val * 16 + k.val) * 32 + f.val = ((r.val * 16 + k.val) * 32 + f.val) * 1 + u.val
    omega)

/-- `[256, 16, 32, 1]` repeated over the four heads: the entry `(r, k, f, h)` is the entry `(r, k, f, 0)`. -/
theorem bcast_heads_apply (v : S256x16x32x1.Idx → α) (hb : S256x16x32x1.Broadcasts S256x16x32x4)
    (r : Fin 256) (k : Fin 16) (f : Fin 32) (h : Fin 4) :
    broadcastTo S256x16x32x4 v hb (ix4 r k f h) = v (ix4 r k f (0 : Fin 1)) :=
  broadcastTo_apply v hb _ _ fun a => by
    match a with | ⟨0, _⟩ => rfl | ⟨1, _⟩ => rfl | ⟨2, _⟩ => rfl | ⟨3, _⟩ => rfl

/-- `[256, 4]` viewed as `[256, 1, 4]`: the entry `(r, 0, h)` is the entry `(r, h)`. -/
theorem cast_unit_mid2_apply (v : S256x4.Idx → α) (hc : S256x4.ShapeCasts S256x1x4)
    (r : Fin 256) (u : Fin 1) (h : Fin 4) :
    shapeCast S256x1x4 v hc (ix3 r u h) = v (ix2 r h) :=
  shapeCast_apply v hc _ _ (by
    have hu : u.val = 0 := by omega
    rw [Shape.rowMajor_val_two, Shape.rowMajor_val_three]
    show r.val * 4 + h.val = (r.val * 1 + u.val) * 4 + h.val
    omega)

/-- `[256, 1, 4]` repeated over the sixteen slots: the entry `(r, k, h)` is the entry `(r, 0, h)`. -/
theorem bcast_slots_apply (v : S256x1x4.Idx → α) (hb : S256x1x4.Broadcasts S256x16x4)
    (r : Fin 256) (k : Fin 16) (h : Fin 4) :
    broadcastTo S256x16x4 v hb (ix3 r k h) = v (ix3 r (0 : Fin 1) h) :=
  broadcastTo_apply v hb _ _ fun a => by
    match a with | ⟨0, _⟩ => rfl | ⟨1, _⟩ => rfl | ⟨2, _⟩ => rfl

/-- `[256, 16, 4]` viewed as `[256, 16, 1, 4]`: the entry `(r, k, 0, h)` is the entry `(r, k, h)`. -/
theorem cast_unit_mid3_apply (v : S256x16x4.Idx → α) (hc : S256x16x4.ShapeCasts S256x16x1x4)
    (r : Fin 256) (k : Fin 16) (u : Fin 1) (h : Fin 4) :
    shapeCast S256x16x1x4 v hc (ix4 r k u h) = v (ix3 r k h) :=
  shapeCast_apply v hc _ _ (by
    have hu : u.val = 0 := by omega
    rw [Shape.rowMajor_val_three, Shape.rowMajor_val_four]
    show (r.val * 16 + k.val) * 4 + h.val = ((r.val * 16 + k.val) * 1 + u.val) * 4 + h.val
    omega)

/-- `[256, 16, 1, 4]` repeated over the thirty-two output features: the entry `(r, k, o, h)` is the entry `(r, k, 0, h)`. -/
theorem bcast_features_apply (v : S256x16x1x4.Idx → α) (hb : S256x16x1x4.Broadcasts S256x16x32x4)
    (r : Fin 256) (k : Fin 16) (o : Fin 32) (h : Fin 4) :
    broadcastTo S256x16x32x4 v hb (ix4 r k o h) = v (ix4 r k (0 : Fin 1) h) :=
  broadcastTo_apply v hb _ _ fun a => by
    match a with | ⟨0, _⟩ => rfl | ⟨1, _⟩ => rfl | ⟨2, _⟩ => rfl | ⟨3, _⟩ => rfl

/-- A `[1, 256, 16, 32, 4]` block viewed as `[256, 16, 32, 4]`: the entry `(r, k, f, h)` is the block's `(0, r, k, f, h)`. -/
theorem cast_block5_apply (v : S1x256x16x32x4.Idx → α) (hc : S1x256x16x32x4.ShapeCasts S256x16x32x4)
    (r : Fin 256) (k : Fin 16) (f : Fin 32) (h : Fin 4) :
    shapeCast S256x16x32x4 v hc (ix4 r k f h) = v (ix5 (0 : Fin 1) r k f h) :=
  shapeCast_apply v hc _ _ (by
    rw [Shape.rowMajor_val_five, Shape.rowMajor_val_four]
    show (((0 * 256 + r.val) * 16 + k.val) * 32 + f.val) * 4 + h.val = ((r.val * 16 + k.val) * 32 + f.val) * 4 + h.val
    omega)

/-! ## The quotients: the kernel's normalised coefficients of a block -/

/-- The graph weights, given a unit head axis and repeated over the heads, times a `[256, 16, 32, 4]` array, summed
    over the features: at `(r, k, h)` the sum over `f` of `v9 (r, k, f) * v31 (r, k, f, h)`. -/
theorem weighted_sum_apply (v9 : FVec Ideal S256x16x32 .f32) (v31 : FVec Ideal S256x16x32x4 .f32)
    (hc : S256x16x32.ShapeCasts S256x16x32x1) (hb : S256x16x32x1.Broadcasts S256x16x32x4)
    (hr : S256x16x32x4.Reduces [2] S256x16x4)
    (hφ : FKind.Formats .f32) (hacc : (0x00000000#32 : BitVec 32) = FKind.add.neutral .f32 hφ)
    (r : Fin 256) (k : Fin 16) (h : Fin 4) :
    multiReduction .add [2] S256x16x4 (mulf (broadcastTo S256x16x32x4 (shapeCast S256x16x32x1 v9 hc) hb) v31)
        0x00000000#32 hr hφ hacc (ix3 r k h)
      = ∑ f : Fin 32, v9 (ix3 r k f) * v31 (ix4 r k f h) := by
  refine (sum_features_apply _ hr hφ hacc r k h).trans ?_
  refine Finset.sum_congr rfl fun f _ => ?_
  refine (mulf_apply _ _ _).trans ?_
  refine congrArg (· * v31 (ix4 r k f h)) ?_
  exact (bcast_heads_apply _ hb r k f h).trans (cast_unit_last_apply v9 hc r k f 0)

/-- The kernel's quotient at `(r, k, h)`: the slot's weighted sum, divided by the sum over the slots of the absolute
    values of their weighted sums plus `ε`. The absolute value of an extended real `x` is `max x (-x)`. -/
theorem pay1_apply (v9 : FVec Ideal S256x16x32 .f32) (v31 : FVec Ideal S256x16x32x4 .f32)
    (r : Fin 256) (k : Fin 16) (h : Fin 4) :
    k0_pay1 (F := Ideal) v9 v31 (ix3 r k h)
      = Ideal.div (∑ f : Fin 32, v9 (ix3 r k f) * v31 (ix4 r k f h))
          ((∑ k' : Fin 16, max (∑ f : Fin 32, v9 (ix3 r k' f) * v31 (ix4 r k' f h))
              (-(∑ f : Fin 32, v9 (ix3 r k' f) * v31 (ix4 r k' f h)))) + eps) := by
  unfold k0_pay1
  refine (divf_apply _ _ _).trans ?_
  -- the numerator is the slot's weighted sum
  refine congrArg₂ Ideal.div (weighted_sum_apply v9 v31 _ _ _ _ _ r k h) ?_
  -- the denominator: one value per row and head, repeated over the slots
  refine (bcast_slots_apply _ _ r k h).trans ?_
  refine (addf_apply _ _ _).trans ?_
  refine congrArg (· + eps) ?_
  refine (cast_unit_mid2_apply _ _ r 0 h).trans ?_
  refine (sum_slots3_apply _ _ _ _ r h).trans ?_
  refine Finset.sum_congr rfl fun k' _ => ?_
  refine (Ideal.absf_def _).trans ?_
  exact congrArg (fun x : EReal => max x (-x)) (weighted_sum_apply v9 v31 _ _ _ _ _ r k' h)

/-! ## The blocks as the kernel reads them -/

/-- The graph-weight block with its unit axis dropped: the entry `(r, k, f)` is the block's `(0, r, k, f)`. -/
theorem pay5_apply (x4 : Vec Ideal S1x256x16x32 .f32) (r : Fin 256) (k : Fin 16) (f : Fin 32) :
    k0_pay5 (F := Ideal) x4 (ix3 r k f) = x4 (ix4 (0 : Fin 1) r k f) := by
  unfold k0_pay5
  exact shapeCast_1abc_abc_apply x4 _ r k f

/-- The block of neighbours' outputs with its unit axis dropped: the entry `(r, k, o, h)` is the block's `(0, r, k, o, h)`. -/
theorem pay4_apply (x3 : Vec Ideal S1x256x16x32x4 .f32) (r : Fin 256) (k : Fin 16) (o : Fin 32) (h : Fin 4) :
    k0_pay4 (F := Ideal) x3 (ix4 r k o h) = x3 (ix5 (0 : Fin 1) r k o h) := by
  unfold k0_pay4
  exact cast_block5_apply x3 _ r k o h

/-- The weighted sum of the kernel's exponentials over the features is the node function's mass of the row. -/
theorem mass_apply (x0 x1 : Vec Ideal S1x256x32x4 .f32) (x2 : Vec Ideal S1x256x16x32x4 .f32) (x4 : Vec Ideal S1x256x16x32 .f32)
    (r : Fin 256) (k : Fin 16) (h : Fin 4) :
    ∑ f : Fin 32, k0_pay5 (F := Ideal) x4 (ix3 r k f) * k0_pay6 (F := Ideal) x0 x1 x2 (ix4 r k f h)
      = mass (blkQ x0 r) (blkQ x1 r) (blkN x2 r) (blkW x4 r) k h := by
  unfold mass
  exact Finset.sum_congr rfl fun f _ => congrArg₂ (· * ·) (pay5_apply x4 r k f) (weight_apply x0 x1 x2 r k f h)

/-- The kernel's quotients of the blocks, before the unit axis is put back: the node function's coefficients of the row. -/
theorem quotient_apply (x0 x1 : Vec Ideal S1x256x32x4 .f32) (x2 : Vec Ideal S1x256x16x32x4 .f32) (x4 : Vec Ideal S1x256x16x32 .f32)
    (r : Fin 256) (k : Fin 16) (h : Fin 4) :
    k0_pay1 (F := Ideal) (k0_pay5 x4) (k0_pay6 x0 x1 x2) (ix3 r k h)
      = coeff (blkQ x0 r) (blkQ x1 r) (blkN x2 r) (blkW x4 r) k h := by
  refine (pay1_apply _ _ r k h).trans ?_
  unfold coeff total
  -- numerator: the slot's mass; denominator: the absolute masses summed over the slots, plus ε
  refine congrArg₂ Ideal.div (mass_apply x0 x1 x2 x4 r k h) (congrArg (· + eps) (Finset.sum_congr rfl fun k' _ => ?_))
  exact congrArg (fun x : EReal => max x (-x)) (mass_apply x0 x1 x2 x4 r k' h)

/-- The stored block of normalised coefficients at `(0, r, k, h)`. -/
theorem coeff_apply (x0 x1 : Vec Ideal S1x256x32x4 .f32) (x2 : Vec Ideal S1x256x16x32x4 .f32) (x4 : Vec Ideal S1x256x16x32 .f32)
    (r : Fin 256) (k : Fin 16) (h : Fin 4) :
    k0_pay2 (F := Ideal) (k0_pay5 x4) (k0_pay6 x0 x1 x2) (ix4 (0 : Fin 1) r k h)
      = coeff (blkQ x0 r) (blkQ x1 r) (blkN x2 r) (blkW x4 r) k h := by
  unfold k0_pay2
  -- putting the unit axis back changes no entry
  refine (shapeCast_abc_1abc_apply _ _ (0 : Fin 1) r k h).trans ?_
  exact quotient_apply x0 x1 x2 x4 r k h

/-- The stored block of combined outputs at `(0, r, o, h)`. -/
theorem agg_apply (x0 x1 : Vec Ideal S1x256x32x4 .f32) (x2 x3 : Vec Ideal S1x256x16x32x4 .f32) (x4 : Vec Ideal S1x256x16x32 .f32)
    (r : Fin 256) (o : Fin 32) (h : Fin 4) :
    k0_pay3 (F := Ideal) (k0_pay4 x3) (k0_pay5 x4) (k0_pay6 x0 x1 x2) (ix4 (0 : Fin 1) r o h)
      = agg (blkQ x0 r) (blkQ x1 r) (blkN x2 r) (blkN x3 r) (blkW x4 r) o h := by
  unfold k0_pay3
  refine (shapeCast_abc_1abc_apply _ _ (0 : Fin 1) r o h).trans ?_
  -- the sum over the slots of the neighbours' outputs times the quotients repeated over the output features
  refine (sum_slots4_apply _ _ _ _ r o h).trans ?_
  unfold agg
  refine Finset.sum_congr rfl fun k _ => ?_
  refine (mulf_apply _ _ _).trans ?_
  refine congrArg₂ (· * ·) (pay4_apply x3 r k o h) ?_
  refine (bcast_features_apply _ _ r k o h).trans ?_
  refine (cast_unit_mid3_apply _ _ r k 0 h).trans ?_
  exact quotient_apply x0 x1 x2 x4 r k h

end Cert.NodeAgg.Ker

end
-- ==== Proof.KerArrays.lean ====
/-
  From the stored blocks to the whole arrays.

  The grid has a point for every batch entry `b` and every run of 256 consecutive positions; at that point every window's
  block is rows `256·l₀ … 256·l₀ + 255` of batch entry `b` of its array, whole on the remaining axes. So row `r` of each input
  block is node `(b, 256·l₀ + r)`'s row of the array, the stored blocks are the node function of those rows, and the blocks
  of all the points tile both output arrays: each output array ends holding the node function at every node.
-/
import proofs.«115344_j18090402250757_1_alg».proof.Proof.Gen.KernelIdeal.Frame
import proofs.«115344_j18090402250757_1_alg».proof.Proof.KerCoeff
import Idealize.ShloMosaic.Lib.Pipeline.Value
import Idealize.ShloMosaic.Lib.StableHlo.Run

set_option maxRecDepth 16384

noncomputable section

namespace Cert.NodeAgg.Ker

open Idealize.ShloMosaic Idealize.ShloMosaic.TcCoe Idealize.ShloMosaic.ValueIdx Idealize.SL.Sem Cert.KernelIdeal Cert.KernelIdeal.Gen
open Idealize.ShloMosaic.Pipeline (Dat Cfg Window)

/-! ## A block against the arrays, over plain vectors -/

/-- The position of row `r` of the `l₀`-th run of 256 positions. -/
def pos (l₀ : Fin 8) (r : Fin 256) : Fin 2048 := ⟨l₀.val * 256 + r.val, by have := l₀.isLt; have := r.isLt; omega⟩

/-- If the rows of the input blocks are the arrays' rows at the nodes `(b, pos l₀ r)`, the stored block of normalised
    coefficients at `y` is the array of normalised coefficients at `(b, pos l₀ (y 1), y 2, y 3)`. -/
theorem coeff_block (x0 x1 : Vec Ideal S1x256x32x4 .f32) (x2 : Vec Ideal S1x256x16x32x4 .f32) (x4 : Vec Ideal S1x256x16x32 .f32)
    (B S : SQ.Idx → EReal) (A : SN.Idx → EReal) (G : SW.Idx → EReal) (b : Fin 4) (l₀ : Fin 8)
    (h0 : ∀ r, blkQ x0 r = rowQ B b (pos l₀ r)) (h1 : ∀ r, blkQ x1 r = rowQ S b (pos l₀ r))
    (h2 : ∀ r, blkN x2 r = rowN A b (pos l₀ r)) (h4 : ∀ r, blkW x4 r = rowW G b (pos l₀ r))
    (y : S1x256x16x4.Idx) :
    k0_pay2 (F := Ideal) (k0_pay5 x4) (k0_pay6 x0 x1 x2) y = coeffArr B S A G (ix4 b (pos l₀ (y 1)) (y 2) (y 3)) := by
  obtain ⟨u, r, k, h, rfl⟩ : ∃ (u : Fin 1) (r : Fin 256) (k : Fin 16) (h : Fin 4), y = ix4 u r k h := ⟨y 0, y 1, y 2, y 3, eq_ix4 y⟩
  obtain rfl : u = 0 := Subsingleton.elim _ _
  rw [coeff_apply, coeffArr_apply, h0, h1, h2, h4]

/-- The same for the stored block of combined outputs. -/
theorem agg_block (x0 x1 : Vec Ideal S1x256x32x4 .f32) (x2 x3 : Vec Ideal S1x256x16x32x4 .f32) (x4 : Vec Ideal S1x256x16x32 .f32)
    (B S : SQ.Idx → EReal) (A N : SN.Idx → EReal) (G : SW.Idx → EReal) (b : Fin 4) (l₀ : Fin 8)
    (h0 : ∀ r, blkQ x0 r = rowQ B b (pos l₀ r)) (h1 : ∀ r, blkQ x1 r = rowQ S b (pos l₀ r))
    (h2 : ∀ r, blkN x2 r = rowN A b (pos l₀ r)) (h3 : ∀ r, blkN x3 r = rowN N b (pos l₀ r)) (h4 : ∀ r, blkW x4 r = rowW G b (pos l₀ r))
    (y : S1x256x32x4.Idx) :
    k0_pay3 (F := Ideal) (k0_pay4 x3) (k0_pay5 x4) (k0_pay6 x0 x1 x2) y = aggArr B S A N G (ix4 b (pos l₀ (y 1)) (y 2) (y 3)) := by
  obtain ⟨u, r, o, h, rfl⟩ : ∃ (u : Fin 1) (r : Fin 256) (o : Fin 32) (h : Fin 4), y = ix4 u r o h := ⟨y 0, y 1, y 2, y 3, eq_ix4 y⟩
  obtain rfl : u = 0 := Subsingleton.elim _ _
  rw [agg_apply, aggArr_apply, h0, h1, h2, h3, h4]

/-! ## The blocks of a grid point -/

variable (m : (ℓ : Loc nD τ sig) → Buf (Elt Ideal) ℓ) (ρ : Dev nD → PrngReg)

theorem hz4 : (![0, 0, 0, 0] : Fin 4 → Nat) = fun _ => 0 := funext fun a => by fin_cases a <;> rfl
theorem hz5 : (![0, 0, 0, 0, 0] : Fin 5 → Nat) = fun _ => 0 := funext fun a => by fin_cases a <;> rfl

/-- The printed index maps, decided over the grid: every window's block index is (batch entry, run of positions) on its
    first two axes and zero on the others, the same pair for all seven windows, within the ranges 4 and 8. -/
theorem idx_facts : ∀ t : Fin cfg0.N,
    (win0_6.index t (0 : Fin 4) ≤ 3 ∧ win0_6.index t (1 : Fin 4) ≤ 7 ∧ win0_6.index t (2 : Fin 4) = 0 ∧ win0_6.index t (3 : Fin 4) = 0)
    ∧ (win0_5.index t (0 : Fin 4) = win0_6.index t (0 : Fin 4) ∧ win0_5.index t (1 : Fin 4) = win0_6.index t (1 : Fin 4) ∧ win0_5.index t (2 : Fin 4) = 0 ∧ win0_5.index t (3 : Fin 4) = 0)
    ∧ (win0_0.index t (0 : Fin 4) = win0_6.index t (0 : Fin 4) ∧ win0_0.index t (1 : Fin 4) = win0_6.index t (1 : Fin 4) ∧ win0_0.index t (2 : Fin 4) = 0 ∧ win0_0.index t (3 : Fin 4) = 0)
    ∧ (win0_1.index t (0 : Fin 4) = win0_6.index t (0 : Fin 4) ∧ win0_1.index t (1 : Fin 4) = win0_6.index t (1 : Fin 4) ∧ win0_1.index t (2 : Fin 4) = 0 ∧ win0_1.index t (3 : Fin 4) = 0)
    ∧ (win0_2.index t (0 : Fin 5) = win0_6.index t (0 : Fin 4) ∧ win0_2.index t (1 : Fin 5) = win0_6.index t (1 : Fin 4) ∧ win0_2.index t (2 : Fin 5) = 0 ∧ win0_2.index t (3 : Fin 5) = 0 ∧ win0_2.index t (4 : Fin 5) = 0)
    ∧ (win0_3.index t (0 : Fin 5) = win0_6.index t (0 : Fin 4) ∧ win0_3.index t (1 : Fin 5) = win0_6.index t (1 : Fin 4) ∧ win0_3.index t (2 : Fin 5) = 0 ∧ win0_3.index t (3 : Fin 5) = 0 ∧ win0_3.index t (4 : Fin 5) = 0)
    ∧ (win0_4.index t (0 : Fin 4) = win0_6.index t (0 : Fin 4) ∧ win0_4.index t (1 : Fin 4) = win0_6.index t (1 : Fin 4) ∧ win0_4.index t (2 : Fin 4) = 0 ∧ win0_4.index t (3 : Fin 4) = 0) :=
  (by decide +kernel : ∀ t : Fin grid0.N, _)

/-- Every (batch entry, run of positions) is some point's. -/
theorem idx_onto : ∀ (q0 : Fin 4) (q1 : Fin 8), ∃ t : Fin cfg0.N, win0_6.index t (0 : Fin 4) = q0.val ∧ win0_6.index t (1 : Fin 4) = q1.val
    ∧ win0_5.index t (0 : Fin 4) = q0.val ∧ win0_5.index t (1 : Fin 4) = q1.val :=
  (by decide +kernel : ∀ (q0 : Fin 4) (q1 : Fin 8), ∃ t : Fin grid0.N, _)

/-- The batch entry of point `t`. -/
def pb (t : Fin cfg0.N) : Fin 4 := ⟨win0_6.index t (0 : Fin 4), by have := (idx_facts t).1.1; omega⟩
/-- The run of positions of point `t`. -/
def pl (t : Fin cfg0.N) : Fin 8 := ⟨win0_6.index t (1 : Fin 4), by have := (idx_facts t).1.2.1; omega⟩

/-- Row `r` of window 0's block at point `t` is node `(pb t, pos (pl t) r)`'s row of its array. -/
theorem row0 (c : Dev nD) (t : Fin cfg0.N) (r : Fin 256) :
    blkQ (iblk m c 0 t) r = rowQ (V m c main_v0) (pb t) (pos (pl t) r) := by
  obtain ⟨-, -, ⟨e0, e1, e2, e3⟩, -⟩ := idx_facts t
  funext f h
  show V m c main_v0 (((cfg0.win 0).blk t).view.emb (ix4 (0 : Fin 1) r f h)) = V m c main_v0 (ix4 (pb t) (pos (pl t) r) f h)
  refine congrArg _ (funext fun a => Fin.ext ?_)
  match a with
  | ⟨0, _⟩ => show win0_0.index t (0 : Fin 4) * 1 + 1 * 0 = win0_6.index t (0 : Fin 4); omega
  | ⟨1, _⟩ => show win0_0.index t (1 : Fin 4) * 256 + 1 * r.val = win0_6.index t (1 : Fin 4) * 256 + r.val; omega
  | ⟨2, _⟩ => show win0_0.index t (2 : Fin 4) * 32 + 1 * f.val = f.val; omega
  | ⟨3, _⟩ => show win0_0.index t (3 : Fin 4) * 4 + 1 * h.val = h.val; omega

/-- Row `r` of window 1's block at point `t`. -/
theorem row1 (c : Dev nD) (t : Fin cfg0.N) (r : Fin 256) :
    blkQ (iblk m c 1 t) r = rowQ (V m c main_v1) (pb t) (pos (pl t) r) := by
  obtain ⟨-, -, -, ⟨e0, e1, e2, e3⟩, -⟩ := idx_facts t
  funext f h
  show V m c main_v1 (((cfg0.win 1).blk t).view.emb (ix4 (0 : Fin 1) r f h)) = V m c main_v1 (ix4 (pb t) (pos (pl t) r) f h)
  refine congrArg _ (funext fun a => Fin.ext ?_)
  match a with
  | ⟨0, _⟩ => show win0_1.index t (0 : Fin 4) * 1 + 1 * 0 = win0_6.index t (0 : Fin 4); omega
  | ⟨1, _⟩ => show win0_1.index t (1 : Fin 4) * 256 + 1 * r.val = win0_6.index t (1 : Fin 4) * 256 + r.val; omega
  | ⟨2, _⟩ => show win0_1.index t (2 : Fin 4) * 32 + 1 * f.val = f.val; omega
  | ⟨3, _⟩ => show win0_1.index t (3 : Fin 4) * 4 + 1 * h.val = h.val; omega

/-- Row `r` of window 2's block at point `t`. -/
theorem row2 (c : Dev nD) (t : Fin cfg0.N) (r : Fin 256) :
    blkN (iblk m c 2 t) r = rowN (V m c main_v2) (pb t) (pos (pl t) r) := by
  obtain ⟨-, -, -, -, ⟨e0, e1, e2, e3, e4⟩, -⟩ := idx_facts t
  funext k f h
  show V m c main_v2 (((cfg0.win 2).blk t).view.emb (ix5 (0 : Fin 1) r k f h)) = V m c main_v2 (ix5 (pb t) (pos (pl t) r) k f h)
  refine congrArg _ (funext fun a => Fin.ext ?_)
  match a with
  | ⟨0, _⟩ => show win0_2.index t (0 : Fin 5) * 1 + 1 * 0 = win0_6.index t (0 : Fin 4); omega
  | ⟨1, _⟩ => show win0_2.index t (1 : Fin 5) * 256 + 1 * r.val = win0_6.index t (1 : Fin 4) * 256 + r.val; omega
  | ⟨2, _⟩ => show win0_2.index t (2 : Fin 5) * 16 + 1 * k.val = k.val; omega
  | ⟨3, _⟩ => show win0_2.index t (3 : Fin 5) * 32 + 1 * f.val = f.val; omega
  | ⟨4, _⟩ => show win0_2.index t (4 : Fin 5) * 4 + 1 * h.val = h.val; omega

/-- Row `r` of window 3's block at point `t`. -/
theorem row3 (c : Dev nD) (t : Fin cfg0.N) (r : Fin 256) :
    blkN (iblk m c 3 t) r = rowN (V m c main_v3) (pb t) (pos (pl t) r) := by
  obtain ⟨-, -, -, -, -, ⟨e0, e1, e2, e3, e4⟩, -⟩ := idx_facts t
  funext k f h
  show V m c main_v3 (((cfg0.win 3).blk t).view.emb (ix5 (0 : Fin 1) r k f h)) = V m c main_v3 (ix5 (pb t) (pos (pl t) r) k f h)
  refine congrArg _ (funext fun a => Fin.ext ?_)
  match a with
  | ⟨0, _⟩ => show win0_3.index t (0 : Fin 5) * 1 + 1 * 0 = win0_6.index t (0 : Fin 4); omega
  | ⟨1, _⟩ => show win0_3.index t (1 : Fin 5) * 256 + 1 * r.val = win0_6.index t (1 : Fin 4) * 256 + r.val; omega
  | ⟨2, _⟩ => show win0_3.index t (2 : Fin 5) * 16 + 1 * k.val = k.val; omega
  | ⟨3, _⟩ => show win0_3.index t (3 : Fin 5) * 32 + 1 * f.val = f.val; omega
  | ⟨4, _⟩ => show win0_3.index t (4 : Fin 5) * 4 + 1 * h.val = h.val; omega

/-- Row `r` of window 4's block (the graph weights) at point `t`. -/
theorem row4 (c : Dev nD) (t : Fin cfg0.N) (r : Fin 256) :
    blkW (iblk m c 4 t) r = rowW (V m c main_arg4) (pb t) (pos (pl t) r) := by
  obtain ⟨-, -, -, -, -, -, ⟨e0, e1, e2, e3⟩⟩ := idx_facts t
  funext k f
  show V m c main_arg4 (((cfg0.win 4).blk t).view.emb (ix4 (0 : Fin 1) r k f)) = V m c main_arg4 (ix4 (pb t) (pos (pl t) r) k f)
  refine congrArg _ (funext fun a => Fin.ext ?_)
  match a with
  | ⟨0, _⟩ => show win0_4.index t (0 : Fin 4) * 1 + 1 * 0 = win0_6.index t (0 : Fin 4); omega
  | ⟨1, _⟩ => show win0_4.index t (1 : Fin 4) * 256 + 1 * r.val = win0_6.index t (1 : Fin 4) * 256 + r.val; omega
  | ⟨2, _⟩ => show win0_4.index t (2 : Fin 4) * 16 + 1 * k.val = k.val; omega
  | ⟨3, _⟩ => show win0_4.index t (3 : Fin 4) * 32 + 1 * f.val = f.val; omega

/-! ## What a point writes back -/

/-- The array of normalised coefficients, of the arrays as the region finds them. -/
abbrev coeffOf (c : Dev nD) : SC.Idx → EReal := coeffArr (V m c main_v0) (V m c main_v1) (V m c main_v2) (V m c main_arg4)
/-- The array of combined outputs, of the arrays as the region finds them. -/
abbrev aggOf (c : Dev nD) : SQ.Idx → EReal := aggArr (V m c main_v0) (V m c main_v1) (V m c main_v2) (V m c main_v3) (V m c main_arg4)

/-- What point `t` writes back through window 6 is block `t` of the array of normalised coefficients. -/
theorem flushed6_eq (c : Dev nD) (t : Fin cfg0.N) :
    (dats m 0 c).flushed 6 t = ((cfg0.win 6).blk t).view.read (Elt Ideal) (coeffOf m c) := by
  show (cfg0.win 6).cut (grid0.coords t) ((dats m 0 c).after 6 t) = _
  rw [after0_6]
  unfold out0_6
  rw [View.canon_unit_zero hz4]
  simp only [View.ld_unit_zero (S := S1x256x32x4) hz4, View.ld_unit_zero (S := S1x256x16x32x4) hz5, View.ld_unit_zero (S := S1x256x16x32) hz4]
  obtain ⟨⟨-, -, e2, e3⟩, -⟩ := idx_facts t
  funext y
  show k0_pay2 (F := Ideal) (k0_pay5 (iblk m c 4 t)) (k0_pay6 (iblk m c 0 t) (iblk m c 1 t) (iblk m c 2 t)) y
    = coeffOf m c (((cfg0.win 6).blk t).view.emb y)
  refine (coeff_block (iblk m c 0 t) (iblk m c 1 t) (iblk m c 2 t) (iblk m c 4 t) (V m c main_v0) (V m c main_v1) (V m c main_v2) (V m c main_arg4)
    (pb t) (pl t) (row0 m c t) (row1 m c t) (row2 m c t) (row4 m c t) y).trans ?_
  refine congrArg (coeffOf m c) (funext fun a => Fin.ext ?_)
  match a with
  | ⟨0, _⟩ => show win0_6.index t (0 : Fin 4) = win0_6.index t (0 : Fin 4) * 1 + 1 * (y 0).val; have hy0 : (y 0).val < 1 := (y 0).isLt; omega
  | ⟨1, _⟩ => show win0_6.index t (1 : Fin 4) * 256 + (y 1).val = win0_6.index t (1 : Fin 4) * 256 + 1 * (y 1).val; omega
  | ⟨2, _⟩ => show (y 2).val = win0_6.index t (2 : Fin 4) * 16 + 1 * (y 2).val; omega
  | ⟨3, _⟩ => show (y 3).val = win0_6.index t (3 : Fin 4) * 4 + 1 * (y 3).val; omega

/-- What point `t` writes back through window 5 is block `t` of the array of combined outputs. -/
theorem flushed5_eq (c : Dev nD) (t : Fin cfg0.N) :
    (dats m 0 c).flushed 5 t = ((cfg0.win 5).blk t).view.read (Elt Ideal) (aggOf m c) := by
  show (cfg0.win 5).cut (grid0.coords t) ((dats m 0 c).after 5 t) = _
  rw [after0_5]
  unfold out0_5
  rw [View.canon_unit_zero hz4]
  simp only [View.ld_unit_zero (S := S1x256x32x4) hz4, View.ld_unit_zero (S := S1x256x16x32x4) hz5, View.ld_unit_zero (S := S1x256x16x32) hz4]
  obtain ⟨-, ⟨e0, e1, e2, e3⟩, -⟩ := idx_facts t
  funext y
  show k0_pay3 (F := Ideal) (k0_pay4 (iblk m c 3 t)) (k0_pay5 (iblk m c 4 t)) (k0_pay6 (iblk m c 0 t) (iblk m c 1 t) (iblk m c 2 t)) y
    = aggOf m c (((cfg0.win 5).blk t).view.emb y)
  refine (agg_block (iblk m c 0 t) (iblk m c 1 t) (iblk m c 2 t) (iblk m c 3 t) (iblk m c 4 t) (V m c main_v0) (V m c main_v1) (V m c main_v2) (V m c main_v3) (V m c main_arg4)
    (pb t) (pl t) (row0 m c t) (row1 m c t) (row2 m c t) (row3 m c t) (row4 m c t) y).trans ?_
  refine congrArg (aggOf m c) (funext fun a => Fin.ext ?_)
  match a with
  | ⟨0, _⟩ => show win0_6.index t (0 : Fin 4) = win0_5.index t (0 : Fin 4) * 1 + 1 * (y 0).val; have hy0 : (y 0).val < 1 := (y 0).isLt; omega
  | ⟨1, _⟩ => show win0_6.index t (1 : Fin 4) * 256 + (y 1).val = win0_5.index t (1 : Fin 4) * 256 + 1 * (y 1).val; omega
  | ⟨2, _⟩ => show (y 2).val = win0_5.index t (2 : Fin 4) * 32 + 1 * (y 2).val; omega
  | ⟨3, _⟩ => show (y 3).val = win0_5.index t (3 : Fin 4) * 4 + 1 * (y 3).val; omega

/-! ## The blocks tile the arrays -/

/-- An index of the coefficients' array is in point `t`'s block iff each coordinate is in the block's range on its axis. -/
theorem mem_blk6 (t : Fin cfg0.N) (i : S4x2048x16x4.Idx) :
    i ∈ ((cfg0.win 6).blk t).view.set ↔ ∀ a : Fin 4, win0_6.index t a * S1x256x16x4.size a ≤ (i a).val ∧ (i a).val < win0_6.index t a * S1x256x16x4.size a + S1x256x16x4.size a := by
  show i ∈ ((View.whole main_v4_1).slice (win0_6.rect t)).set ↔ _
  rw [View.set_slice_whole, Rect.mem_set_unit]
  exact Iff.rfl

/-- The same for the combined outputs' array. -/
theorem mem_blk5 (t : Fin cfg0.N) (i : S4x2048x32x4.Idx) :
    i ∈ ((cfg0.win 5).blk t).view.set ↔ ∀ a : Fin 4, win0_5.index t a * S1x256x32x4.size a ≤ (i a).val ∧ (i a).val < win0_5.index t a * S1x256x32x4.size a + S1x256x32x4.size a := by
  show i ∈ ((View.whole main_v4_0).slice (win0_5.rect t)).set ↔ _
  rw [View.set_slice_whole, Rect.mem_set_unit]
  exact Iff.rfl

/-- Every index of the coefficients' array is in the block of the point of its batch entry and its run of positions. -/
theorem cover6 (i : S4x2048x16x4.Idx) : ∃ t : Fin cfg0.N, (cfg0.win 6).flush t = true ∧ i ∈ ((cfg0.win 6).blk t).view.set := by
  have hi0 : (i 0).val < 4 := (i 0).isLt
  have hi1 : (i 1).val < 2048 := (i 1).isLt
  have hi2 : (i 2).val < 16 := (i 2).isLt
  have hi3 : (i 3).val < 4 := (i 3).isLt
  obtain ⟨t, q0, q1, -, -⟩ := idx_onto ⟨(i 0).val, hi0⟩ ⟨(i 1).val / 256, by omega⟩
  have q0' : win0_6.index t (0 : Fin 4) = (i 0).val := q0
  have q1' : win0_6.index t (1 : Fin 4) = (i 1).val / 256 := q1
  obtain ⟨⟨-, -, e2, e3⟩, -⟩ := idx_facts t
  refine ⟨t, flush0_6 t, ?_⟩
  rw [mem_blk6]
  intro a
  match a with
  | ⟨0, _⟩ => show win0_6.index t (0 : Fin 4) * 1 ≤ (i 0).val ∧ (i 0).val < win0_6.index t (0 : Fin 4) * 1 + 1; omega
  | ⟨1, _⟩ => show win0_6.index t (1 : Fin 4) * 256 ≤ (i 1).val ∧ (i 1).val < win0_6.index t (1 : Fin 4) * 256 + 256; omega
  | ⟨2, _⟩ => show win0_6.index t (2 : Fin 4) * 16 ≤ (i 2).val ∧ (i 2).val < win0_6.index t (2 : Fin 4) * 16 + 16; omega
  | ⟨3, _⟩ => show win0_6.index t (3 : Fin 4) * 4 ≤ (i 3).val ∧ (i 3).val < win0_6.index t (3 : Fin 4) * 4 + 4; omega

/-- The same for the combined outputs' array. -/
theorem cover5 (i : S4x2048x32x4.Idx) : ∃ t : Fin cfg0.N, (cfg0.win 5).flush t = true ∧ i ∈ ((cfg0.win 5).blk t).view.set := by
  have hi0 : (i 0).val < 4 := (i 0).isLt
  have hi1 : (i 1).val < 2048 := (i 1).isLt
  have hi2 : (i 2).val < 32 := (i 2).isLt
  have hi3 : (i 3).val < 4 := (i 3).isLt
  obtain ⟨t, -, -, q0, q1⟩ := idx_onto ⟨(i 0).val, hi0⟩ ⟨(i 1).val / 256, by omega⟩
  have q0' : win0_5.index t (0 : Fin 4) = (i 0).val := q0
  have q1' : win0_5.index t (1 : Fin 4) = (i 1).val / 256 := q1
  obtain ⟨-, ⟨-, -, e2, e3⟩, -⟩ := idx_facts t
  refine ⟨t, flush0_5 t, ?_⟩
  rw [mem_blk5]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 256 ≤ (i 1).val ∧ (i 1).val < win0_5.index t (1 : Fin 4) * 256 + 256; omega
  | ⟨2, _⟩ => show win0_5.index t (2 : Fin 4) * 32 ≤ (i 2).val ∧ (i 2).val < win0_5.index t (2 : Fin 4) * 32 + 32; omega
  | ⟨3, _⟩ => show win0_5.index t (3 : Fin 4) * 4 ≤ (i 3).val ∧ (i 3).val < win0_5.index t (3 : Fin 4) * 4 + 4; omega

/-- The coefficients' array after the run. -/
theorem final6 (c : Dev nD) : (dats m 0 c).arrAt 6 cfg0.N = coeffOf m c :=
  (dats m 0 c).arrAt_eq_of_cover 6 (coeffOf m c) (fun t _ => flushed6_eq m c t) cover6

/-- The combined outputs' array after the run. -/
theorem final5 (c : Dev nD) : (dats m 0 c).arrAt 5 cfg0.N = aggOf m c :=
  (dats m 0 c).arrAt_eq_of_cover 5 (aggOf m c) (fun t _ => flushed5_eq m c t) cover5

/-! ## The host operations around the region -/

/-- The region finds `beta` re-laid by feature and head. -/
theorem V_main_v0 (c : Dev nD) :
    (V m c main_v0 : S4x2048x32x4.Idx → EReal) = shapeCast S4x2048x32x4 (m ((c : Thread nD τ).loc main_arg0)) shapeCasts_S4x2048x128_S4x2048x32x4 := by
  show StableHlo.after hostOps0 (fun b => m (c, b)) (Proc.devRef .tc main_v0) = _
  after_results
  rfl

/-- The region finds the self-attention term re-laid by feature and head. -/
theorem V_main_v1 (c : Dev nD) :
    (V m c main_v1 : S4x2048x32x4.Idx → EReal) = shapeCast S4x2048x32x4 (m ((c : Thread nD τ).loc main_arg1)) shapeCasts_S4x2048x128_S4x2048x32x4 := by
  show StableHlo.after hostOps0 (fun b => m (c, b)) (Proc.devRef .tc main_v1) = _
  after_results
  rfl

/-- The region finds the attention coefficients re-laid by slot, feature and head. -/
theorem V_main_v2 (c : Dev nD) :
    (V m c main_v2 : S4x2048x16x32x4.Idx → EReal) = shapeCast S4x2048x16x32x4 (m ((c : Thread nD τ).loc main_arg2)) shapeCasts_S4x2048x16x128_S4x2048x16x32x4 := by
  show StableHlo.after hostOps0 (fun b => m (c, b)) (Proc.devRef .tc main_v2) = _
  after_results
  rfl

/-- The region finds the neighbours' outputs re-laid by slot, feature and head. -/
theorem V_main_v3 (c : Dev nD) :
    (V m c main_v3 : S4x2048x16x32x4.Idx → EReal) = shapeCast S4x2048x16x32x4 (m ((c : Thread nD τ).loc main_arg3)) shapeCasts_S4x2048x16x128_S4x2048x16x32x4 := by
  show StableHlo.after hostOps0 (fun b => m (c, b)) (Proc.devRef .tc main_v3) = _
  after_results
  rfl

/-- After the region the combined outputs are laid flat: the first result. -/
theorem tail_main_v5 (c : Dev nD) :
    Pipeline.afterTail₀ cfgs (dats m) 0 (V0 m) [hostOps1] c main_v5
      = shapeCast S4x2048x128 (aggOf m c) shapeCasts_S4x2048x32x4_S4x2048x128 := by
  unfold Pipeline.afterTail₀
  show StableHlo.after hostOps1 _ (Proc.devRef .tc main_v5) = _
  after_results
  exact congrArg (fun z => shapeCast S4x2048x128 z shapeCasts_S4x2048x32x4_S4x2048x128)
    ((Pipeline.withArrays_arr spec0 launch0.win.arr_inj c (V0 m c) (fun w => (dats m 0 c).arrAt w cfg0.N) 5).trans (final5 m c))

/-! ## The run, with its results named -/

/-- Every weakly fair execution of the idealized kernel's program terminates with the first result at the combined outputs
    laid flat, the second at the normalised coefficients — both the node function of the re-laid arguments — and the
    arguments unchanged. -/
theorem run_values : θ_run defs (onTc (τ := τ) (main (F := Ideal))) ⟨m, fun _ => 0, ρ⟩ fun r => ∀ c : Dev nD,
      r.2.mem ((c.tc : Thread nD τ).loc main_v5) = shapeCast S4x2048x128 (aggOf m c) shapeCasts_S4x2048x32x4_S4x2048x128
      ∧ r.2.mem ((c.tc : Thread nD τ).loc main_v4_1) = coeffOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v5 (Pipeline.mem_restRefs_of main_v5 (by decide) (by decide))).trans (tail_main_v5 m c),
      ((h c).1 6).trans (final6 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c)))⟩)
    (run_main m ρ)

end Cert.NodeAgg.Ker

end
-- ==== Proof.LibScatterFold.lean ====
/-
  A scatter read at one index of its result.

  A scatter folds a step over every update index in turn: the step puts `f (r i) (upd j)` at the index `i` the update index `j`
  lands on, and leaves every other entry alone (an update that lands outside the operand is dropped). So an entry that no
  update lands on keeps the operand's value, and an entry that exactly one update lands on holds `f` of the operand's value
  and that update. Generic in the shapes, the dimension numbers, the element type and the combining function.

  The two facts are first proved for the fold of the step over an arbitrary list of update labels `κ` with an arbitrary
  landing map `g : κ → Option ι`, by induction on the list; the scatter is the case of the list `0, 1, …, numel - 1` of
  row-major positions, which has no repetition and contains every position.
-/
import Idealize.ShloMosaic.PureOps.ShapeOps

noncomputable section

namespace Cert.Lib.ScatterFold

open Idealize.ShloMosaic

section Fold

variable {ι κ α : Type} [DecidableEq ι]

/-- The step a scatter folds: the label `n` lands on the entry `g n` (or on none), and the entry it lands on is replaced by
    `f` of its current value and the update `v n`; every other entry is kept. -/
def scatterStep (g : κ → Option ι) (f : α → α → α) (v : κ → α) (r : ι → α) (n : κ) : ι → α :=
  match g n with
  | some i => fun i' => if i' = i then f (r i) (v n) else r i'
  | none => r

/-- A step whose label does not land on `i` keeps the entry at `i`. -/
theorem scatterStep_apply_of_ne (g : κ → Option ι) (f : α → α → α) (v : κ → α) (r : ι → α) (n : κ) (i : ι)
    (h : g n ≠ some i) : scatterStep g f v r n i = r i := by
  unfold scatterStep
  cases hg : g n with
  | none => rfl
  | some i₀ =>
    -- the label lands on `i₀`, which is not `i`: the conditional takes its second branch
    have hne : i ≠ i₀ := fun e => h (by rw [hg, e])
    exact if_neg hne

/-- A step whose label lands on `i` combines the entry at `i` with the label's update. -/
theorem scatterStep_apply_of_eq (g : κ → Option ι) (f : α → α → α) (v : κ → α) (r : ι → α) (n : κ) (i : ι)
    (h : g n = some i) : scatterStep g f v r n i = f (r i) (v n) := by
  unfold scatterStep
  rw [h]
  exact if_pos rfl

/-- Folding the step over a list none of whose labels lands on `i` keeps the entry at `i`. -/
theorem foldl_scatterStep_apply_of_none (g : κ → Option ι) (f : α → α → α) (v : κ → α) (l : List κ) (r : ι → α) (i : ι)
    (h : ∀ n ∈ l, g n ≠ some i) : l.foldl (scatterStep g f v) r i = r i := by
  induction l generalizing r with
  | nil => rfl
  | cons n l ih =>
    -- the tail keeps the entry of the accumulator after the head's step, and the head's step keeps it too
    rw [List.foldl_cons, ih _ fun m hm => h m (List.mem_cons_of_mem _ hm)]
    exact scatterStep_apply_of_ne g f v r n i (h n List.mem_cons_self)

/-- Folding the step over a list without repetition in which exactly one label, `n₀`, lands on `i`: the entry at `i` is
    `f` of the starting entry and `n₀`'s update. -/
theorem foldl_scatterStep_apply_of_unique (g : κ → Option ι) (f : α → α → α) (v : κ → α) (l : List κ) (hl : l.Nodup)
    (r : ι → α) (i : ι) (n₀ : κ) (hn₀ : n₀ ∈ l) (hg : g n₀ = some i) (huniq : ∀ n ∈ l, g n = some i → n = n₀) :
    l.foldl (scatterStep g f v) r i = f (r i) (v n₀) := by
  induction l generalizing r with
  | nil => cases hn₀
  | cons n l ih =>
    have hnd := List.nodup_cons.1 hl
    rw [List.foldl_cons]
    by_cases hn : n = n₀
    · -- the head is `n₀`: it does not occur again in the tail, so nothing in the tail lands on `i`, and the entry is the
      -- one the head's step wrote
      subst hn
      have htail : ∀ m ∈ l, g m ≠ some i := fun m hm hgm =>
        hnd.1 (huniq m (List.mem_cons_of_mem _ hm) hgm ▸ hm)
      rw [foldl_scatterStep_apply_of_none g f v l _ i htail]
      exact scatterStep_apply_of_eq g f v r n i hg
    · -- the head is another label: it does not land on `i`, so its step keeps the entry, and `n₀` is in the tail
      have hmem : n₀ ∈ l := (List.mem_cons.1 hn₀).resolve_left (Ne.symm hn)
      rw [ih hnd.2 _ hmem fun m hm => huniq m (List.mem_cons_of_mem _ hm)]
      rw [scatterStep_apply_of_ne g f v r n i fun e => hn (huniq n List.mem_cons_self e)]

end Fold

variable {α : Type} {s si u : Shape} {w : Nat}

/-- A scatter is the fold of `scatterStep` over the row-major positions `0, 1, …, numel - 1` of the updates: position `n`
    stands for the update index with that row-major number. -/
theorem scatter_eq_foldl (d : ScatterDims s si u) (f : α → α → α) (x : s.Idx → α) (idx : IVec si w) (upd : u.Idx → α) :
    Host.scatter d f x idx upd
      = (List.finRange u.numel).foldl
          (scatterStep (fun n => d.resultIdx? (u.rowMajor.symm n) idx) f fun n => upd (u.rowMajor.symm n)) x := by
  unfold Host.scatter
  -- the two folds run over the same list from the same start: it is enough that their steps agree
  refine congrArg (fun step => List.foldl step x (List.finRange u.numel)) ?_
  funext r n
  unfold scatterStep
  beta_reduce
  -- both steps branch on where position `n` lands, and agree in either case
  cases d.resultIdx? (u.rowMajor.symm n) idx <;> rfl

/-- An entry that exactly one update index lands on holds the combination of the operand's entry and that update. -/
theorem scatter_apply_of_unique (d : ScatterDims s si u) (f : α → α → α) (x : s.Idx → α) (idx : IVec si w) (upd : u.Idx → α)
    (i : s.Idx) (j : u.Idx) (hj : d.resultIdx? j idx = some i) (huniq : ∀ j', d.resultIdx? j' idx = some i → j' = j) :
    Host.scatter d f x idx upd i = f (x i) (upd j) := by
  rw [scatter_eq_foldl]
  -- the one position that lands on `i` is the row-major number of `j`
  have key := foldl_scatterStep_apply_of_unique (fun n => d.resultIdx? (u.rowMajor.symm n) idx) f
    (fun n => upd (u.rowMajor.symm n)) (List.finRange u.numel) (List.nodup_finRange _) x i (u.rowMajor j)
    (List.mem_finRange _) (by rw [Equiv.symm_apply_apply]; exact hj)
    (fun n _ hn => by rw [← huniq _ hn, Equiv.apply_symm_apply])
  rw [key, Equiv.symm_apply_apply]

/-- An entry that no update index lands on keeps the operand's value. -/
theorem scatter_apply_of_none (d : ScatterDims s si u) (f : α → α → α) (x : s.Idx → α) (idx : IVec si w) (upd : u.Idx → α)
    (i : s.Idx) (hnone : ∀ j, d.resultIdx? j idx ≠ some i) :
    Host.scatter d f x idx upd i = x i := by
  rw [scatter_eq_foldl]
  exact foldl_scatterStep_apply_of_none _ f _ (List.finRange u.numel) x i fun n _ => hnone _

end Cert.Lib.ScatterFold

end
-- ==== Proof.RefSlot.lean ====
/-
  The self-attention term goes into neighbour slot 0.

  The reference adds the `[4, 2048, 32, 4]` self-attention rows into slot 0 of the `[4, 2048, 16, 32, 4]` coefficients by a
  scatter at the single index 0 along the slot axis: update index `(b, l, f, h)` lands on `(b, l, 0, f, h)`. Read at
  `(b, l, k, f, h)`: slot 0 holds the sum of the coefficient and the self-attention entry, every other slot the coefficient.

  The landing index of an update is, axis by axis, a start plus a window coordinate. The start is read off the scatter
  indices on the slot axis (axis 2) and is 0 on every other axis; the scatter indices being all 0, it is 0 everywhere. The
  window coordinates on the four kept axes 0, 1, 3, 4 are the update's four coordinates, and the one on the inserted slot
  axis is 0. So `(b, l, f, h)` lands on `(b, l, 0, f, h)`, which is inside the operand; the landing map is injective, it
  reaches every entry of slot 0 exactly once and no entry of another slot.
-/
import proofs.«115344_j18090402250757_1_alg».proof.Proof.Gen.ReferenceIdeal
import proofs.«115344_j18090402250757_1_alg».proof.Proof.LibScatterFold
import Idealize.ShloMosaic.PureOps.Ideal
import Idealize.ShloMosaic.Lib.ValueIdx

noncomputable section

namespace Cert.NodeAgg.Ref

open Idealize.ShloMosaic Idealize.ShloMosaic.ValueIdx Cert.ReferenceIdeal Cert.ReferenceIdeal.Gen

/-- The entry `(j 0, j 1, 0, j 2, j 3)` of the operand: slot `0`, at the batch, node, feature and head of the update index `j`. -/
abbrev slotZero (j : S4x2048x32x4.Idx) : S4x2048x16x32x4.Idx :=
  ix5 (n0 := 4) (n1 := 2048) (n2 := 16) (n3 := 32) (n4 := 4) (j 0) (j 1) 0 (j 2) (j 3)

/-- With scatter indices that are all `0` the window of every update starts at `0` on every axis: on the slot axis the
    start is the scatter index read as a signed integer, which is `0`, and the other axes are not scattered. -/
theorem slot_start_eq_zero (idx : IVec S1 32) (hidx : ∀ i, idx i = 0#32) (j : S4x2048x32x4.Idx)
    (a : Fin S4x2048x16x32x4.rank) :
    scatter_S4x2048x16x32x4_S1_S4x2048x32x4_0123_2_2_0.start j idx a = 0 := by
  unfold ScatterDims.start
  split
  · rw [hidx]; rfl
  · rfl

/-- The window coordinates of the update index `j`: its four coordinates on the kept axes 0, 1, 3, 4 and `0` on the
    inserted slot axis; that is, the coordinates of `(j 0, j 1, 0, j 2, j 3)`. -/
theorem slot_window (j : S4x2048x32x4.Idx) (a : Fin S4x2048x16x32x4.rank) :
    scatter_S4x2048x16x32x4_S1_S4x2048x32x4_0123_2_2_0.window j a = (slotZero j a).val := by
  -- the operand's kept axes are 0, 1, 3, 4 in this order, and the update's window axes 0, 1, 2, 3 go to them in turn; on
  -- each literal axis both sides compute
  match a with
  | ⟨0, _⟩ => rfl
  | ⟨1, _⟩ => rfl
  | ⟨2, _⟩ => rfl
  | ⟨3, _⟩ => rfl
  | ⟨4, _⟩ => rfl

/-- With scatter indices that are all `0`, the update index `j` lands on `(j 0, j 1, 0, j 2, j 3)`. -/
theorem slot_resultIdx (idx : IVec S1 32) (hidx : ∀ i, idx i = 0#32) (j : S4x2048x32x4.Idx) :
    scatter_S4x2048x16x32x4_S1_S4x2048x32x4_0123_2_2_0.resultIdx? j idx = some (slotZero j) := by
  unfold ScatterDims.resultIdx?
  -- start plus window coordinate is a coordinate of an index of the operand, hence inside the operand
  rw [dif_pos fun a => by
    rw [slot_start_eq_zero idx hidx, slot_window]
    have := (slotZero j a).isLt
    omega]
  -- and, start being 0, it is that coordinate
  refine congrArg some (funext fun a => Fin.ext ?_)
  show (scatter_S4x2048x16x32x4_S1_S4x2048x32x4_0123_2_2_0.start j idx a
    + (scatter_S4x2048x16x32x4_S1_S4x2048x32x4_0123_2_2_0.window j a : ℤ)).toNat = _
  rw [slot_start_eq_zero idx hidx, slot_window]
  omega

/-- The scatter of the reference read at `(b, l, k, f, h)`, for scatter indices that are all `0`. -/
theorem slot_add (x : S4x2048x16x32x4.Idx → EReal) (idx : IVec S1 32) (hidx : ∀ i, idx i = 0#32) (u : S4x2048x32x4.Idx → EReal)
    (b : Fin 4) (l : Fin 2048) (k : Fin 16) (f : Fin 32) (h : Fin 4) :
    Host.scatter scatter_S4x2048x16x32x4_S1_S4x2048x32x4_0123_2_2_0 (FloatOps.addf (F := Ideal) (φ := .f32)) x idx u (ix5 b l k f h)
      = if k.val = 0 then x (ix5 b l k f h) + u (ix4 b l f h) else x (ix5 b l k f h) := by
  by_cases hk : k.val = 0
  · -- slot 0: exactly the update index `(b, l, f, h)` lands here
    obtain rfl : k = 0 := Fin.ext hk
    rw [if_pos hk]
    refine Cert.Lib.ScatterFold.scatter_apply_of_unique _ _ x idx u (ix5 b l 0 f h) (ix4 b l f h)
      (slot_resultIdx idx hidx (ix4 b l f h)) fun j' hj' => ?_
    -- an update index landing on `(b, l, 0, f, h)` has the coordinates `b, l, f, h`
    rw [slot_resultIdx idx hidx j'] at hj'
    have e := Option.some.inj hj'
    funext a
    match a with
    | ⟨0, _⟩ => exact congrFun e (0 : Fin 5)
    | ⟨1, _⟩ => exact congrFun e (1 : Fin 5)
    | ⟨2, _⟩ => exact congrFun e (3 : Fin 5)
    | ⟨3, _⟩ => exact congrFun e (4 : Fin 5)
  · -- another slot: every update lands in slot 0, so none lands here
    rw [if_neg hk]
    refine Cert.Lib.ScatterFold.scatter_apply_of_none _ _ x idx u (ix5 b l k f h) fun j hj => ?_
    rw [slot_resultIdx idx hidx j] at hj
    -- the landing index and `(b, l, k, f, h)` would agree on the slot axis, where they read `0` and `k`
    have e := congrFun (Option.some.inj hj) (2 : Fin 5)
    exact hk (congrArg Fin.val e).symm

end Cert.NodeAgg.Ref

end
-- ==== Proof.RefPeak.lean ====
/-
  The reference's maximum over slots and features together is the maximum over slots of the maxima over features.

  The reference reduces the `[4, 2048, 16, 32, 4]` scaled coefficients over axes 2 and 3 at once, from `−∞`. A maximum does not
  depend on the order or grouping of its arguments, so at `(b, l, h)` it is the nested maximum, each level from `−∞`.

  The source indices that reduce to `(b, l, h)` are exactly the `(b, l, k, f, h)`, one for each slot `k` and feature `f`. Both
  sides are therefore the least upper bound of the same family `x (b, l, k, f, h)` together with `−∞`: every value under one
  maximum occurs under the other, and a maximum is below whatever bounds all of its arguments.
-/
import proofs.«115344_j18090402250757_1_alg».proof.Proof.Gen.ReferenceIdeal
import Idealize.ShloMosaic.PureOps.Ideal
import Idealize.ShloMosaic.PureOps.Ideal.Laws
import Idealize.ShloMosaic.PureOps.Reduce
import Idealize.ShloMosaic.Lib.ValueIdx
import Mathlib.Data.Finset.Fold

noncomputable section

namespace Cert.NodeAgg.Ref

open Idealize.ShloMosaic Idealize.ShloMosaic.ValueIdx Cert.ReferenceIdeal Cert.ReferenceIdeal.Gen

/-- Dropping axes 2 and 3 of `(b', l', k, f, h')` leaves `(b', l', h')`: the slot and the feature go, the rest stay in order. -/
theorem drop_ix5 (b' : Fin 4) (l' : Fin 2048) (k : Fin 16) (f : Fin 32) (h' : Fin 4) :
    reducesTo_S4x2048x16x32x4_S4x2048x4_d2_3.drop (ix5 b' l' k f h') = ix3 b' l' h' := by
  funext a
  apply Fin.ext
  match a with
  | ⟨0, _⟩ => exact reducesTo_S4x2048x16x32x4_S4x2048x4_d2_3.drop_apply_val_of_eq _ 0 0
  | ⟨1, _⟩ => exact reducesTo_S4x2048x16x32x4_S4x2048x4_d2_3.drop_apply_val_of_eq _ 1 1
  | ⟨2, _⟩ => exact reducesTo_S4x2048x16x32x4_S4x2048x4_d2_3.drop_apply_val_of_eq _ 2 4

/-- Two rank-3 indices are equal exactly when their coordinates are. -/
theorem ix3_eq_ix3_iff (b' b : Fin 4) (l' l : Fin 2048) (h' h : Fin 4) :
    (ix3 b' l' h' : S4x2048x4.Idx) = ix3 b l h ↔ b' = b ∧ l' = l ∧ h' = h := by
  constructor
  · intro e
    exact ⟨congrFun e 0, congrFun e 1, congrFun e 2⟩
  · rintro ⟨rfl, rfl, rfl⟩
    rfl

/-- The two-axis maximum of the reference read at `(b, l, h)`, from an initial value that is `−∞`. -/
theorem peak_apply (x : S4x2048x16x32x4.Idx → EReal) (v : S_.Idx → EReal) (hv : ∀ i, v i = ⊥)
    (b : Fin 4) (l : Fin 2048) (h : Fin 4) :
    Host.reduce (FloatOps.maximumf (F := Ideal) (φ := .f32)) x v reducesTo_S4x2048x16x32x4_S4x2048x4_d2_3 h_S_ (ix3 b l h)
      = (Finset.univ : Finset (Fin 16)).fold max ⊥ fun k => (Finset.univ : Finset (Fin 32)).fold max ⊥ fun f => x (ix5 b l k f h) := by
  -- The reduction is the maximum, from the initial vector's one entry (which is `−∞`), over the SET of source indices
  -- that drop to `(b, l, h)`; the order of the set does not matter because `max` commutes and associates.
  rw [Host.reduce_eq_fold, hv]
  -- On the extended reals the float maximum is the order's `max`.
  change (Finset.univ.filter fun i => reducesTo_S4x2048x16x32x4_S4x2048x4_d2_3.drop i = ix3 b l h).fold max ⊥ x = _
  -- Both sides are least upper bounds of the same family of values, so each is below the other.
  apply le_antisymm
  · -- (≤) A source index that drops to `(b, l, h)` is `(b, l, k, f, h)` for its own slot `k` and feature `f`, so its value is one
    -- of the values under the inner maximum at `k`, which is one of the values under the outer maximum.
    refine (Finset.fold_max_le _).mpr ⟨bot_le, fun i hi => ?_⟩
    obtain ⟨b', l', k, f, h', rfl⟩ : ∃ (b' : Fin 4) (l' : Fin 2048) (k : Fin 16) (f : Fin 32) (h' : Fin 4),
        i = ix5 b' l' k f h' := ⟨_, _, _, _, _, eq_ix5 i⟩
    rw [Finset.mem_filter, drop_ix5, ix3_eq_ix3_iff] at hi
    obtain ⟨-, rfl, rfl, rfl⟩ := hi
    exact (Finset.le_fold_max _).mpr (Or.inr ⟨k, Finset.mem_univ k,
      (Finset.le_fold_max _).mpr (Or.inr ⟨f, Finset.mem_univ f, le_rfl⟩)⟩)
  · -- (≥) For every slot `k` and feature `f` the index `(b, l, k, f, h)` drops to `(b, l, h)`, so its value is one of the
    -- values under the maximum over the set.
    refine (Finset.fold_max_le _).mpr ⟨bot_le, fun k _ => (Finset.fold_max_le _).mpr ⟨bot_le, fun f _ => ?_⟩⟩
    exact (Finset.le_fold_max _).mpr (Or.inr ⟨ix5 b l k f h,
      Finset.mem_filter.mpr ⟨Finset.mem_univ _, drop_ix5 b l k f h⟩, le_rfl⟩)

end Cert.NodeAgg.Ref

end
-- ==== Proof.RefValue.lean ====
/-
  The reference computes the node function.

  Its second result is the normalised coefficients and its first, before the final flattening, the combined outputs, of
  the four re-laid argument arrays and the graph weights: stage by stage the reference's operations are the steps of the
  node function read at an index, the scatter and the two-axis maximum by the two lemmas about them.

  Every stage is read at an index `(b, l, …)` written out in its coordinates, so that a broadcast's or a sum's index map
  computes coordinate by coordinate. Writing `β`, `σ`, `a`, `ν`, `g` for node `(b, l)`'s rows of the re-laid arguments:
    * stages 5–10:   `a k f h` (plus `σ f h` in slot 0) times `β f h + ε`                        — `scaled k f h`;
    * stages 11–13:  its maximum over all slots and features, from `−∞`, copied back to every entry — `peak h`;
    * stages 14–16:  `exp (scaled k f h − peak h)`                                                  — `weight k f h`;
    * stages 15–19:  `0 + ∑ f, g k f · weight k f h`                                                — `mass k h`;
    * stages 20–21:  `0 + ∑ k, |mass k h|`, the absolute value being `max x (−x)`                   — `total h`;
    * stages 22–26:  `mass k h / (total h + ε)`                                                     — `coeff k h`;
    * stages 27–30:  `0 + ∑ k, ν k o h · coeff k h`                                                 — `agg o h`.
  On the extended reals `0 + x = x`, so the sums that start from the word of `0` are the plain sums. `ε` stays the
  constant's word, unevaluated, exactly as the node function has it.
-/
import proofs.«115344_j18090402250757_1_alg».proof.Proof.Gen.ReferenceIdeal.Read
import proofs.«115344_j18090402250757_1_alg».proof.Proof.Spec
import proofs.«115344_j18090402250757_1_alg».proof.Proof.RefSlot
import proofs.«115344_j18090402250757_1_alg».proof.Proof.RefPeak

noncomputable section

namespace Cert.NodeAgg.Ref

open Idealize.ShloMosaic Idealize.ShloMosaic.ValueIdx Cert.ReferenceIdeal Cert.ReferenceIdeal.Gen Cert.ReferenceIdeal.Read

section Stages

variable (x0 x1 : (⟨S4x2048x128, .f32⟩ : BufTy).Contents (Elt Ideal)) (x2 x3 : (⟨S4x2048x16x128, .f32⟩ : BufTy).Contents (Elt Ideal))
  (x4 : (⟨S4x2048x16x32, .f32⟩ : BufTy).Contents (Elt Ideal))
  (b : Fin 4) (l : Fin 2048) (k : Fin 16) (f o : Fin 32) (h : Fin 4)

/-! ## The scaled coefficients -/

/-- Stage 7 is `β + ε` by feature and head: the re-laid `beta` plus the splat of the constant's word. -/
theorem stage7_eq_beta_add_eps :
    val_main_v7 (F := Ideal) x0 (ix4 b l f h) = val_main_v0 (F := Ideal) x0 (ix4 b l f h) + eps := by
  rw [val_main_v7_apply, Ideal.addf_def, val_main_v6_apply, val_main_cst_apply, Ideal.ofBits_def]

/-- Stages 8 and 9 copy `β + ε` to every slot: first a unit slot axis is inserted, then it is stretched to the sixteen
    slots, so entry `(b, l, k, f, h)` reads entry `(b, l, f, h)` whatever `k` is. -/
theorem stage9_eq_beta_add_eps :
    val_main_v9 (F := Ideal) x0 (ix5 b l k f h) = val_main_v0 (F := Ideal) x0 (ix4 b l f h) + eps := by
  refine (val_main_v9_apply x0 _).trans ((val_main_v8_apply x0 _).trans ?_)
  have e : idx_main_v8 (idx_main_v9 (ix5 b l k f h)) = ix4 b l f h :=
    funext fun a => Fin.ext (by match a with | ⟨0, _⟩ => rfl | ⟨1, _⟩ => rfl | ⟨2, _⟩ => rfl | ⟨3, _⟩ => rfl)
  rw [e]
  exact stage7_eq_beta_add_eps x0 b l f h

/-- Stage 5, the scatter at the single index `0` along the slot axis, adds the self-attention term into slot 0 and
    leaves every other slot as it was. Its scatter indices are the splat of the integer `0`. -/
theorem stage5_eq_slot_add :
    val_main_v5 (F := Ideal) x1 x2 (ix5 b l k f h)
      = if k.val = 0 then val_main_v2 (F := Ideal) x2 (ix5 b l k f h) + val_main_v1 (F := Ideal) x1 (ix4 b l f h)
        else val_main_v2 (F := Ideal) x2 (ix5 b l k f h) := by
  unfold val_main_v5
  exact slot_add _ _ (fun i => by rw [val_main_v4_apply, val_main_c_apply]) _ b l k f h

/-- Stage 10, the product of the two, is the scaled coefficient of the node's rows. -/
theorem stage10_eq_scaled :
    val_main_v10 (F := Ideal) x0 x1 x2 (ix5 b l k f h)
      = scaled (rowQ (val_main_v0 (F := Ideal) x0) b l) (rowQ (val_main_v1 (F := Ideal) x1) b l)
          (rowN (val_main_v2 (F := Ideal) x2) b l) k f h := by
  rw [val_main_v10_apply, Ideal.mulf_def, stage5_eq_slot_add, stage9_eq_beta_add_eps]
  rfl

/-! ## The peak and the weights -/

/-- Stage 11, the maximum over slots and features together starting from the word of `−∞`, is the head's peak: the
    nested maximum of the scaled coefficients, each of which is the node function's by the previous lemma. -/
theorem stage11_eq_peak :
    val_main_v11 (F := Ideal) x0 x1 x2 (ix3 b l h)
      = peak (rowQ (val_main_v0 (F := Ideal) x0) b l) (rowQ (val_main_v1 (F := Ideal) x1) b l)
          (rowN (val_main_v2 (F := Ideal) x2) b l) h := by
  unfold val_main_v11
  refine (peak_apply _ _ (fun i => ?_) b l h).trans ?_
  · rw [val_main_cst_0_apply, Ideal.ofBits_def, ofBits_negInf]
  · exact Finset.fold_congr fun k _ => Finset.fold_congr fun f _ => stage10_eq_scaled x0 x1 x2 b l k f h

/-- Stages 12 and 13 copy the peak back to every slot and feature: two unit axes are inserted and then stretched, so
    entry `(b, l, k, f, h)` reads entry `(b, l, h)`. -/
theorem stage13_eq_peak :
    val_main_v13 (F := Ideal) x0 x1 x2 (ix5 b l k f h)
      = peak (rowQ (val_main_v0 (F := Ideal) x0) b l) (rowQ (val_main_v1 (F := Ideal) x1) b l)
          (rowN (val_main_v2 (F := Ideal) x2) b l) h := by
  refine (val_main_v13_apply x0 x1 x2 _).trans ((val_main_v12_apply x0 x1 x2 _).trans ?_)
  have e : idx_main_v12 (idx_main_v13 (ix5 b l k f h)) = ix3 b l h :=
    funext fun a => Fin.ext (by match a with | ⟨0, _⟩ => rfl | ⟨1, _⟩ => rfl | ⟨2, _⟩ => rfl)
  rw [e]
  exact stage11_eq_peak x0 x1 x2 b l h

/-- Stages 14 and 16: the exponential of the scaled coefficient less the peak is the weight. -/
theorem stage16_eq_weight :
    val_main_v16 (F := Ideal) x0 x1 x2 (ix5 b l k f h)
      = weight (rowQ (val_main_v0 (F := Ideal) x0) b l) (rowQ (val_main_v1 (F := Ideal) x1) b l)
          (rowN (val_main_v2 (F := Ideal) x2) b l) k f h := by
  rw [val_main_v16_apply, Ideal.hostUnary_exp_def, val_main_v14_apply, Ideal.subf_def, stage10_eq_scaled, stage13_eq_peak]
  rfl

/-! ## The masses, their total and the normalised coefficients -/

/-- Stages 15 and 17 copy the graph weight of a slot and feature to every head: a unit head axis is appended and then
    stretched, so entry `(b, l, k, f, h)` reads entry `(b, l, k, f)` of the graph weights. -/
theorem stage17_eq_graph_weight :
    val_main_v17 (F := Ideal) x4 (ix5 b l k f h) = x4 (ix4 b l k f) := by
  refine (val_main_v17_apply x4 _).trans ((val_main_v15_apply x4 _).trans ?_)
  exact congrArg x4 (funext fun a => Fin.ext (by match a with | ⟨0, _⟩ => rfl | ⟨1, _⟩ => rfl | ⟨2, _⟩ => rfl | ⟨3, _⟩ => rfl))

/-- Stages 18 and 19: the sum over the features of the graph weights times the weights, started from the word of `0`
    (which is `0`, and `0 + x = x`), is the mass of the slot and head. -/
theorem stage19_eq_mass :
    val_main_v19 (F := Ideal) x0 x1 x2 x4 (ix4 b l k h)
      = mass (rowQ (val_main_v0 (F := Ideal) x0) b l) (rowQ (val_main_v1 (F := Ideal) x1) b l)
          (rowN (val_main_v2 (F := Ideal) x2) b l) (rowW x4 b l) k h := by
  rw [val_main_v19_apply, val_main_cst_1_apply, Ideal.ofBits_def, Ideal.ofBits_zero_f32, zero_add]
  refine Finset.sum_congr rfl fun f _ => ?_
  have e : idx_main_v19 (ix4 b l k h) f = ix5 b l k f h :=
    funext fun a => Fin.ext (by match a with | ⟨0, _⟩ => rfl | ⟨1, _⟩ => rfl | ⟨2, _⟩ => rfl | ⟨3, _⟩ => rfl | ⟨4, _⟩ => rfl)
  rw [e, val_main_v18_apply, Ideal.mulf_def, stage17_eq_graph_weight, stage16_eq_weight]

/-- Stages 20 and 21: the sum over the slots of the absolute masses (`|x| = max x (−x)`), started from `0`, is the
    total of the head. -/
theorem stage21_eq_total :
    val_main_v21 (F := Ideal) x0 x1 x2 x4 (ix3 b l h)
      = total (rowQ (val_main_v0 (F := Ideal) x0) b l) (rowQ (val_main_v1 (F := Ideal) x1) b l)
          (rowN (val_main_v2 (F := Ideal) x2) b l) (rowW x4 b l) h := by
  rw [val_main_v21_apply, val_main_cst_2_apply, Ideal.ofBits_def, Ideal.ofBits_zero_f32, zero_add]
  refine Finset.sum_congr rfl fun k _ => ?_
  have e : idx_main_v21 (ix3 b l h) k = ix4 b l k h :=
    funext fun a => Fin.ext (by match a with | ⟨0, _⟩ => rfl | ⟨1, _⟩ => rfl | ⟨2, _⟩ => rfl | ⟨3, _⟩ => rfl)
  rw [e, val_main_v20_apply, Ideal.hostAbsf_def, Ideal.absf_def, stage19_eq_mass]

/-- Stages 22 to 25: the normaliser `total + ε`, formed on a unit slot axis and then copied to every slot, so entry
    `(b, l, k, h)` reads the total at `(b, l, h)` whatever `k` is. -/
theorem stage25_eq_total_add_eps :
    val_main_v25 (F := Ideal) x0 x1 x2 x4 (ix4 b l k h)
      = total (rowQ (val_main_v0 (F := Ideal) x0) b l) (rowQ (val_main_v1 (F := Ideal) x1) b l)
          (rowN (val_main_v2 (F := Ideal) x2) b l) (rowW x4 b l) h + eps := by
  rw [val_main_v25_apply, val_main_v24_apply, Ideal.addf_def, val_main_v23_apply, val_main_cst_3_apply, Ideal.ofBits_def,
    val_main_v22_apply]
  have e : idx_main_v22 (idx_main_v25 (ix4 b l k h)) = ix3 b l h :=
    funext fun a => Fin.ext (by match a with | ⟨0, _⟩ => rfl | ⟨1, _⟩ => rfl | ⟨2, _⟩ => rfl)
  rw [e, stage21_eq_total]

/-- Stage 26: the quotient of the mass by the normaliser is the normalised coefficient. -/
theorem stage26_eq_coeff :
    val_main_v26 (F := Ideal) x0 x1 x2 x4 (ix4 b l k h)
      = coeff (rowQ (val_main_v0 (F := Ideal) x0) b l) (rowQ (val_main_v1 (F := Ideal) x1) b l)
          (rowN (val_main_v2 (F := Ideal) x2) b l) (rowW x4 b l) k h := by
  rw [val_main_v26_apply, Ideal.hostDivf_def, stage19_eq_mass, stage25_eq_total_add_eps]
  rfl

/-! ## The combined outputs -/

/-- Stages 27 and 28 copy a slot's coefficient to every output feature: a unit feature axis is inserted and then
    stretched, so entry `(b, l, k, o, h)` reads entry `(b, l, k, h)`. -/
theorem stage28_eq_coeff :
    val_main_v28 (F := Ideal) x0 x1 x2 x4 (ix5 b l k o h)
      = coeff (rowQ (val_main_v0 (F := Ideal) x0) b l) (rowQ (val_main_v1 (F := Ideal) x1) b l)
          (rowN (val_main_v2 (F := Ideal) x2) b l) (rowW x4 b l) k h := by
  refine (val_main_v28_apply x0 x1 x2 x4 _).trans ((val_main_v27_apply x0 x1 x2 x4 _).trans ?_)
  have e : idx_main_v27 (idx_main_v28 (ix5 b l k o h)) = ix4 b l k h :=
    funext fun a => Fin.ext (by match a with | ⟨0, _⟩ => rfl | ⟨1, _⟩ => rfl | ⟨2, _⟩ => rfl | ⟨3, _⟩ => rfl)
  rw [e]
  exact stage26_eq_coeff x0 x1 x2 x4 b l k h

/-- Stages 29 and 30: the sum over the slots of the neighbours' outputs times the coefficients, started from `0`, is
    the combined output of the feature and head. -/
theorem stage30_eq_agg :
    val_main_v30 (F := Ideal) x0 x1 x2 x3 x4 (ix4 b l o h)
      = agg (rowQ (val_main_v0 (F := Ideal) x0) b l) (rowQ (val_main_v1 (F := Ideal) x1) b l)
          (rowN (val_main_v2 (F := Ideal) x2) b l) (rowN (val_main_v3 (F := Ideal) x3) b l) (rowW x4 b l) o h := by
  rw [val_main_v30_apply, val_main_cst_4_apply, Ideal.ofBits_def, Ideal.ofBits_zero_f32, zero_add]
  refine Finset.sum_congr rfl fun k _ => ?_
  have e : idx_main_v30 (ix4 b l o h) k = ix5 b l k o h :=
    funext fun a => Fin.ext (by match a with | ⟨0, _⟩ => rfl | ⟨1, _⟩ => rfl | ⟨2, _⟩ => rfl | ⟨3, _⟩ => rfl | ⟨4, _⟩ => rfl)
  rw [e, val_main_v29_apply, Ideal.mulf_def, stage28_eq_coeff]

end Stages

/-- The reference's normalised coefficients are the node function's, of the re-laid arguments. -/
theorem ref_coeff (x0 x1 : (⟨S4x2048x128, .f32⟩ : BufTy).Contents (Elt Ideal)) (x2 : (⟨S4x2048x16x128, .f32⟩ : BufTy).Contents (Elt Ideal))
    (x4 : (⟨S4x2048x16x32, .f32⟩ : BufTy).Contents (Elt Ideal)) :
    val_main_v26 (F := Ideal) x0 x1 x2 x4
      = coeffArr (val_main_v0 (F := Ideal) x0) (val_main_v1 (F := Ideal) x1) (val_main_v2 (F := Ideal) x2) x4 := by
  -- Two arrays are equal when they agree at every index, and every index is `(b, l, k, h)` of its coordinates.
  funext i
  obtain ⟨b, l, k, h, rfl⟩ : ∃ b l k h, i = ix4 b l k h := ⟨_, _, _, _, eq_ix4 i⟩
  rw [coeffArr_apply]
  exact stage26_eq_coeff x0 x1 x2 x4 b l k h

/-- The reference's combined outputs, before the final flattening, are the node function's. -/
theorem ref_agg (x0 x1 : (⟨S4x2048x128, .f32⟩ : BufTy).Contents (Elt Ideal)) (x2 x3 : (⟨S4x2048x16x128, .f32⟩ : BufTy).Contents (Elt Ideal))
    (x4 : (⟨S4x2048x16x32, .f32⟩ : BufTy).Contents (Elt Ideal)) :
    val_main_v30 (F := Ideal) x0 x1 x2 x3 x4
      = aggArr (val_main_v0 (F := Ideal) x0) (val_main_v1 (F := Ideal) x1) (val_main_v2 (F := Ideal) x2) (val_main_v3 (F := Ideal) x3) x4 := by
  -- As above, at the index `(b, l, o, h)`.
  funext i
  obtain ⟨b, l, o, h, rfl⟩ : ∃ b l o h, i = ix4 b l o h := ⟨_, _, _, _, eq_ix4 i⟩
  rw [aggArr_apply]
  exact stage30_eq_agg x0 x1 x2 x3 x4 b l o h

end Cert.NodeAgg.Ref

end
-- ==== Proof.lean ====
/-
  A graph-attention aggregation over neighbour slots: the kernel against its reference, over the extended reals.

  Each node (batch entry `b`, position `l`) has sixteen neighbour slots, thirty-two features and four heads. Both programs
  re-lay the four flat argument arrays by feature and head; then, node by node: the self-attention term goes into slot 0,
  every slot is scaled by `β + ε`, the largest scaled coefficient of each head over all slots and features is subtracted,
  the exponentials are weighted by the graph weights and summed over the features, the sums are normalised by the sum over
  the slots of their absolute values plus `ε` (the second result), and the neighbours' outputs are combined with these
  coefficients over the slots and laid flat (the first result). Proof/Spec.lean states this as one function of a node's rows.

  The two programs differ in three places, none of which changes a value on the extended reals. The kernel puts the
  self-attention term into slot 0 by a 0/1 mask over the slot axis where the reference scatters it there: `1 · x = x`,
  `0 · x = 0` and `y + 0 = y` for every extended real. The kernel takes the maximum over the features and then over the
  slots, the reference over both at once: a maximum does not depend on grouping. And the kernel works on blocks of 256
  nodes, which tile the arrays. The constant `ε` is the same word on both sides and is never evaluated; no finiteness of
  the inputs is used.

  The kernel's value is read off its generated frame run (Proof/KerWeight.lean, KerCoeff.lean: the stored blocks at an
  index; Proof/KerArrays.lean: the blocks tile the arrays, and the host operations around the region), the reference's
  off its generated run, one operation at a time (Proof/RefSlot.lean, RefPeak.lean: the scatter and the two-axis
  maximum; Proof/RefValue.lean: the rest). The kernel's idealization rewrote no operation, so `preserves` is `True`.
-/
import proofs.«115344_j18090402250757_1_alg».proof.Defs
import proofs.«115344_j18090402250757_1_alg».proof.Proof.Gen.Kernel
import proofs.«115344_j18090402250757_1_alg».proof.Proof.Gen.Kernel.Skeleton
import proofs.«115344_j18090402250757_1_alg».proof.Proof.Gen.Kernel.Launch
import proofs.«115344_j18090402250757_1_alg».proof.Proof.Gen.Kernel.Points
import proofs.«115344_j18090402250757_1_alg».proof.Proof.Gen.Kernel.Frame
import proofs.«115344_j18090402250757_1_alg».proof.Proof.Gen.KernelIdeal
import proofs.«115344_j18090402250757_1_alg».proof.Proof.Gen.KernelIdeal.Skeleton
import proofs.«115344_j18090402250757_1_alg».proof.Proof.Gen.KernelIdeal.Launch
import proofs.«115344_j18090402250757_1_alg».proof.Proof.Gen.KernelIdeal.Points
import proofs.«115344_j18090402250757_1_alg».proof.Proof.Gen.KernelIdeal.Frame
import proofs.«115344_j18090402250757_1_alg».proof.Proof.Gen.ReferenceIdeal
import proofs.«115344_j18090402250757_1_alg».proof.Proof.Gen.Pre_finite_inputs
import proofs.«115344_j18090402250757_1_alg».proof.Proof.Gen.ReferenceIdeal.Run
import proofs.«115344_j18090402250757_1_alg».proof.Proof.Gen.ReferenceIdeal.Read
import proofs.«115344_j18090402250757_1_alg».proof.Proof.KerArrays
import proofs.«115344_j18090402250757_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments unchanged: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories that agree on the arguments both programs end with the node function of the re-laid arguments: the
    combined outputs laid flat and the normalised coefficients. -/
theorem algebraic : Cert.algebraic_KernelIdeal_ReferenceIdeal := by
  intro m ρ m' ρ' _ hagree
  refine ⟨_, _, Cert.NodeAgg.Ker.run_values m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v31_eq, (hagree c).1, (hagree c).2.1, (hagree c).2.2.1, (hagree c).2.2.2.1, (hagree c).2.2.2.2]
    unfold Cert.ReferenceIdeal.Read.val_main_v31
    rw [Cert.NodeAgg.Ref.ref_agg]
    unfold Cert.NodeAgg.Ker.aggOf
    rw [Cert.NodeAgg.Ker.V_main_v0 m c, Cert.NodeAgg.Ker.V_main_v1 m c, Cert.NodeAgg.Ker.V_main_v2 m c, Cert.NodeAgg.Ker.V_main_v3 m c,
      Cert.KernelIdeal.Gen.V_main_arg4 m c]
    rfl
  · rw [Cert.ReferenceIdeal.Read.val_main_v26_eq, (hagree c).1, (hagree c).2.1, (hagree c).2.2.1, (hagree c).2.2.2.2]
    rw [Cert.NodeAgg.Ref.ref_coeff]
    unfold Cert.NodeAgg.Ker.coeffOf
    rw [Cert.NodeAgg.Ker.V_main_v0 m c, Cert.NodeAgg.Ker.V_main_v1 m c, Cert.NodeAgg.Ker.V_main_v2 m c, Cert.KernelIdeal.Gen.V_main_arg4 m c]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
